-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S512x1024 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S16384x1024 : Shape := ⟨2, ![16384, 1024]⟩
abbrev S512x1024 : Shape := ⟨2, ![512, 1024]⟩
abbrev S512 : Shape := ⟨1, ![512]⟩
abbrev S16384x28 : Shape := ⟨2, ![16384, 28]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S16384x28 : S_.BroadcastsInDim S16384x28 (![] : Fin 0 → Fin S16384x28.rank)
  reducesTo_S16384x28_S_d0_1 : S16384x28.ReducesTo [0, 1] S_

variable [Facts]

def fn_part1 {F : FTy → Type} [FloatOps F] (main_arg4 : FVec F S16384x28 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S16384x28 .f32 := Host.absf main_arg4
  let main_cst_6 : FVec F S_ .f32 := constant S_ .f32 0x7F800000#32
  let main_v20 : FVec F S16384x28 .f32 := broadcastInDim S16384x28 ![] bcast_S_S16384x28 main_cst_6
  let main_v21 : IVec S16384x28 1 := cmpf .olt main_v19 main_v20
  let main_c_7 : IVec S_ 1 := constantI S_ 1 1#1
  let main_v22 : IVec S_ 1 := (fun x v => Host.reduce IntOp.andi x v reducesTo_S16384x28_S_d0_1 h_S_) main_v21 main_c_7
  let main_v23 : IVec S_ 1 := andi main_v18 main_v22
  main_v23

def fn {F : FTy → Type} [FloatOps F] (main_arg0 : FVec F S8192x1024 .f32) (main_arg1 : FVec F S16384x1024 .f32) (main_arg2 : FVec F S512x1024 .f32) (main_arg3 : FVec F S512 .f32) (main_arg4 : FVec F S16384x28 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S8192x1024 : Shape := ⟨2, ![8192, 1024]⟩
abbrev S16384x1024 : Shape := ⟨2, ![16384, 1024]⟩
abbrev S512x1024 : Shape := ⟨2, ![512, 1024]⟩
abbrev S512 : Shape := ⟨1, ![512]⟩
abbrev S16384x28 : Shape := ⟨2, ![16384, 28]⟩
abbrev S1024x512 : Shape := ⟨2, ![1024, 512]⟩
abbrev S1x512 : Shape := ⟨2, ![1, 512]⟩
abbrev S8192x512 : Shape := ⟨2, ![8192, 512]⟩
abbrev S512x512 : Shape := ⟨2, ![512, 512]⟩
abbrev S512x1 : Shape := ⟨2, ![512, 1]⟩
abbrev S16384x512 : Shape := ⟨2, ![16384, 512]⟩
abbrev S_ : Shape := ⟨0, ![]⟩
abbrev S16384x128 : Shape := ⟨2, ![16384, 128]⟩
abbrev S28 : Shape := ⟨1, ![28]⟩
abbrev S128 : Shape := ⟨1, ![128]⟩
abbrev S1x128 : Shape := ⟨2, ![1, 128]⟩
abbrev S8192x128 : Shape := ⟨2, ![8192, 128]⟩
abbrev S1024x128 : Shape := ⟨2, ![1024, 128]⟩
abbrev S1024x1024 : Shape := ⟨2, ![1024, 1024]⟩
abbrev S8192x28 : Shape := ⟨2, ![8192, 28]⟩

abbrev nBuf : Space → Nat
  | .hbm => 29
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S16384x1024, .f32⟩
  | .hbm, ⟨2, _⟩ => ⟨S512x1024, .f32⟩
  | .hbm, ⟨3, _⟩ => ⟨S512, .f32⟩
  | .hbm, ⟨4, _⟩ => ⟨S16384x28, .f32⟩
  | .hbm, ⟨5, _⟩ => ⟨S1024x512, .f32⟩
  | .hbm, ⟨6, _⟩ => ⟨S1x512, .f32⟩
  | .hbm, ⟨7, _⟩ => ⟨S1024x512, .bf16⟩
  | .hbm, ⟨8, _⟩ => ⟨S1024x512, .f32⟩
  | .hbm, ⟨9, _⟩ => ⟨S1024x512, .f32⟩
  | .hbm, ⟨10, _⟩ => ⟨S1024x512, .bf16⟩
  | .hbm, ⟨11, _⟩ => ⟨S8192x512, .bf16⟩
  | .hbm, ⟨12, _⟩ => ⟨S16384x512, .bf16⟩
  | .hbm, ⟨13, _⟩ => ⟨S_, .i32⟩
  | .hbm, ⟨14, _⟩ => ⟨S_, .f32⟩
  | .hbm, ⟨15, _⟩ => ⟨S16384x128, .f32⟩
  | .hbm, ⟨16, _⟩ => ⟨S16384x128, .bf16⟩
  | .hbm, ⟨17, _⟩ => ⟨S_, .f32⟩
  | .hbm, ⟨18, _⟩ => ⟨S28, .f32⟩
  | .hbm, ⟨19, _⟩ => ⟨S_, .f32⟩
  | .hbm, ⟨20, _⟩ => ⟨S_, .f32⟩
  | .hbm, ⟨21, _⟩ => ⟨S28, .f32⟩
  | .hbm, ⟨22, _⟩ => ⟨S28, .f32⟩
  | .hbm, ⟨23, _⟩ => ⟨S_, .f32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S8192x128, .f32⟩
  | .hbm, ⟨28, _⟩ => ⟨S8192x28, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | .local _ .vmem, ⟨7, _⟩ => ⟨S512x1024, .f32⟩
  | .local _ .vmem, ⟨8, _⟩ => ⟨S512x1024, .f32⟩
  | .local _ .vmem, ⟨9, _⟩ => ⟨S1024x512, .bf16⟩
  | .local _ .vmem, ⟨10, _⟩ => ⟨S1024x512, .bf16⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x128, .bf16⟩
  | .local _ .vmem, ⟨19, _⟩ => ⟨S1024x128, .bf16⟩
  | .local _ .vmem, ⟨20, _⟩ => ⟨S1x128, .f32⟩
  | .local _ .vmem, ⟨21, _⟩ => ⟨S1024x128, .f32⟩
  | .local _ .vmem, ⟨22, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_cst_0 : Ref sig .tc := ⟨.hbm, 19, rfl⟩
abbrev main_call1_v0 : Ref sig .tc := ⟨.hbm, 20, rfl⟩
abbrev main_call1_v1 : Ref sig .tc := ⟨.hbm, 21, rfl⟩
abbrev main_v11 : Ref sig .tc := ⟨.hbm, 22, rfl⟩
abbrev main_cst_1 : Ref sig .tc := ⟨.hbm, 23, rfl⟩
abbrev main_call2_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![8, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  transposes_S512x1024_S1024x512_1_0 : S512x1024.Transposes [1, 0] S1024x512
  shapeCasts_S512_S1x512 : S512.ShapeCasts S1x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  pads_S16384x28_S16384x128_000_01000 : S16384x28.Pads (![0, 0] : Fin 2 → Nat) ![0, 100] ![0, 0] S16384x128
  h_S_ : 0 < S_.numel
  reducesTo_S16384x28_S28_d0 : S16384x28.ReducesTo [0] S28
  bcast_S_S28 : S_.BroadcastsInDim S28 (![] : Fin 0 → Fin S28.rank)
  pads_S28_S128_01000 : S28.Pads (![0] : Fin 1 → Nat) ![100] ![0] S128
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  transposes_S1024x512_p1_0_S512x1024 : S1024x512.Transposes [1, 0] S512x1024
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S8192x128_S8192x28_0_0 : S8192x128.Slices ![0, 0] S8192x28
  dot_S512x1024_S1024x512_S512x512_1_0_0_1_n_n_wf : DotDims.WF S512x1024 S1024x512 S512x512 [1] [0] [0] [1] [] []
  dot_S1024x512_S512x1024_S1024x1024_1_0_0_1_n_n_wf : DotDims.WF S1024x512 S512x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x512.size a
  hwx0_4 : ∀ i : grid0.Coords, EltTy.bits .bf16 = 32 ∨ (Rect.block (s := S8192x512) S512x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .f32 = 32 ∨ (Rect.block (s := S16384x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .bf16 = 32 ∨ (Rect.block (s := S1024x512) S1024x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S1024x512.size a
  hwx1_2 : ∀ i : grid1.Coords, EltTy.bits .bf16 = 32 ∨ (Rect.block (s := S1024x512) S1024x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S16384x512.size a
  hwx1_4 : ∀ i : grid1.Coords, EltTy.bits .bf16 = 32 ∨ (Rect.block (s := S16384x512) S512x512.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .bf16 = 32 ∨ (Rect.block (s := S8192x512) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S16384x512.size a
  hwx2_1 : ∀ i : grid2.Coords, EltTy.bits .bf16 = 32 ∨ (Rect.block (s := S16384x512) S1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S16384x128.size a
  hwx2_2 : ∀ i : grid2.Coords, EltTy.bits .bf16 = 32 ∨ (Rect.block (s := S16384x128) S1024x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x128.size a ≤ S8192x128.size a
  hwx2_4 : ∀ i : grid2.Coords, EltTy.bits .f32 = 32 ∨ (Rect.block (s := S8192x128) S1024x128.size (cc2_transform_4 i) (hinb2_4 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v6) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1024x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x1024 : Shape := ⟨2, ![8192, 1024]⟩
abbrev S16384x1024 : Shape := ⟨2, ![16384, 1024]⟩
abbrev S512x1024 : Shape := ⟨2, ![512, 1024]⟩
abbrev S512 : Shape := ⟨1, ![512]⟩
abbrev S16384x28 : Shape := ⟨2, ![16384, 28]⟩
abbrev S1024x512 : Shape := ⟨2, ![1024, 512]⟩
abbrev S8192x512 : Shape := ⟨2, ![8192, 512]⟩
abbrev S1x512 : Shape := ⟨2, ![1, 512]⟩
abbrev S16384x512 : Shape := ⟨2, ![16384, 512]⟩
abbrev S_ : Shape := ⟨0, ![]⟩
abbrev S8192 : Shape := ⟨1, ![8192]⟩
abbrev S8192x1 : Shape := ⟨2, ![8192, 1]⟩
abbrev S16384 : Shape := ⟨1, ![16384]⟩
abbrev S16384x1 : Shape := ⟨2, ![16384, 1]⟩
abbrev S512x16384 : Shape := ⟨2, ![512, 16384]⟩
abbrev S8192x16384 : Shape := ⟨2, ![8192, 16384]⟩
abbrev S8192x28 : Shape := ⟨2, ![8192, 28]⟩
abbrev S28 : Shape := ⟨1, ![28]⟩
abbrev S1x28 : Shape := ⟨2, ![1, 28]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16384x1024, .f32⟩
  | .hbm, ⟨2, _⟩ => ⟨S512x1024, .f32⟩
  | .hbm, ⟨3, _⟩ => ⟨S512, .f32⟩
  | .hbm, ⟨4, _⟩ => ⟨S16384x28, .f32⟩
  | .hbm, ⟨5, _⟩ => ⟨S1024x512, .f32⟩
  | .hbm, ⟨6, _⟩ => ⟨S8192x512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S1024x512, .f32⟩
  | .hbm, ⟨11, _⟩ => ⟨S16384x512, .f32⟩
  | .hbm, ⟨12, _⟩ => ⟨S1x512, .f32⟩
  | .hbm, ⟨13, _⟩ => ⟨S16384x512, .f32⟩
  | .hbm, ⟨14, _⟩ => ⟨S16384x512, .f32⟩
  | .hbm, ⟨15, _⟩ => ⟨S8192x512, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x512, .f32⟩
  | .hbm, ⟨24, _⟩ => ⟨S8192x512, .f32⟩
  | .hbm, ⟨25, _⟩ => ⟨S16384x512, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x512, .f32⟩
  | .hbm, ⟨34, _⟩ => ⟨S16384x512, .f32⟩
  | .hbm, ⟨35, _⟩ => ⟨S512x16384, .f32⟩
  | .hbm, ⟨36, _⟩ => ⟨S8192x16384, .f32⟩
  | .hbm, ⟨37, _⟩ => ⟨S8192x16384, .f32⟩
  | .hbm, ⟨38, _⟩ => ⟨S_, .f32⟩
  | .hbm, ⟨39, _⟩ => ⟨S8192x16384, .f32⟩
  | .hbm, ⟨40, _⟩ => ⟨S8192x16384, .f32⟩
  | .hbm, ⟨41, _⟩ => ⟨S8192x16384, .f32⟩
  | .hbm, ⟨42, _⟩ => ⟨S8192x16384, .f32⟩
  | .hbm, ⟨43, _⟩ => ⟨S8192x28, .f32⟩
  | .hbm, ⟨44, _⟩ => ⟨S_, .f32⟩
  | .hbm, ⟨45, _⟩ => ⟨S28, .f32⟩
  | .hbm, ⟨46, _⟩ => ⟨S_, .f32⟩
  | .hbm, ⟨47, _⟩ => ⟨S_, .f32⟩
  | .hbm, ⟨48, _⟩ => ⟨S28, .f32⟩
  | .hbm, ⟨49, _⟩ => ⟨S28, .f32⟩
  | .hbm, ⟨50, _⟩ => ⟨S1x28, .f32⟩
  | .hbm, ⟨51, _⟩ => ⟨S8192x28, .f32⟩
  | .hbm, ⟨52, _⟩ => ⟨S8192x28, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8192x28, .f32⟩
  | .hbm, ⟨57, _⟩ => ⟨S8192x28, .f32⟩
  | .hbm, ⟨58, _⟩ => ⟨S_, .f32⟩
  | .hbm, ⟨59, _⟩ => ⟨S8192x28, .f32⟩
  | .hbm, ⟨60, _⟩ => ⟨S8192x28, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_cst_5 : Ref sig .tc := ⟨.hbm, 46, rfl⟩
abbrev main_call0_v0 : Ref sig .tc := ⟨.hbm, 47, rfl⟩
abbrev main_call0_v1 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_cst_7 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S1x512_S16384x512_0_1 : S1x512.BroadcastsInDim S16384x512 (![0, 1] : Fin 2 → Fin S16384x512.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S16384x512_S16384_d1 : S16384x512.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  transposes_S16384x512_S512x16384_1_0 : S16384x512.Transposes [1, 0] S512x16384
  bcast_S_S8192x16384 : S_.BroadcastsInDim S8192x16384 (![] : Fin 0 → Fin S8192x16384.rank)
  reducesTo_S16384x28_S28_d0 : S16384x28.ReducesTo [0] S28
  bcast_S_S28 : S_.BroadcastsInDim S28 (![] : Fin 0 → Fin S28.rank)
  bcast_S28_S1x28_1 : S28.BroadcastsInDim S1x28 (![1] : Fin 1 → Fin S1x28.rank)
  bcast_S1x28_S8192x28_0_1 : S1x28.BroadcastsInDim S8192x28 (![0, 1] : Fin 2 → Fin S8192x28.rank)
  bcast_S_S8192x28 : S_.BroadcastsInDim S8192x28 (![] : Fin 0 → Fin S8192x28.rank)
  dot_S8192x1024_S1024x512_S8192x512_1_0_0_1_n_n_wf : DotDims.WF S8192x1024 S1024x512 S8192x512 [1] [0] [0] [1] [] []
  dot_S16384x1024_S1024x512_S16384x512_1_0_0_1_n_n_wf : DotDims.WF S16384x1024 S1024x512 S16384x512 [1] [0] [0] [1] [] []
  dot_S8192x512_S512x16384_S8192x16384_1_0_0_1_n_n_wf : DotDims.WF S8192x512 S512x16384 S8192x16384 [1] [0] [0] [1] [] []
  dot_S8192x16384_S16384x28_S8192x28_1_0_0_1_n_n_wf : DotDims.WF S8192x16384 S16384x28 S8192x28 [1] [0] [0] [1] [] []

variable [Facts₀]

def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S8192x512_S512x16384_S8192x16384_1_0_0_1_n_n : DotDims S8192x512 S512x16384 S8192x16384 where
  lhsContracting := [1]
  rhsContracting := [0]
  lhsNonContracting := [0]
  rhsNonContracting := [1]
  lhsBatch := []
  rhsBatch := []
  wf := dot_S8192x512_S512x16384_S8192x16384_1_0_0_1_n_n_wf
def dot_S8192x16384_S16384x28_S8192x28_1_0_0_1_n_n : DotDims S8192x16384 S16384x28 S8192x28 where
  lhsContracting := [1]
  rhsContracting := [0]
  lhsNonContracting := [0]
  rhsNonContracting := [1]
  lhsBatch := []
  rhsBatch := []
  wf := dot_S8192x16384_S16384x28_S8192x28_1_0_0_1_n_n_wf

class Facts : Prop extends Facts₀ where

variable [Facts]
-- ==== Proof.Spec.lean ====
/-
  The mathematics both programs compute, over plain coordinates, on the extended reals.

  A row of features is projected, `p = x · gwᵀ + gb`, and divided by its Euclidean norm clamped below at the
  literal `ε`; query row `i` and example row `n` meet in the inner product `s` of their two unit rows; the
  activation is the odd power `s³` (the reference writes it `|s|^3 · sign s`); the echo at class `c` is
  `∑ₙ s(i,n)³ · ec(n,c)` over the class count `max 1 (∑ₙ ec(n,c))`, clipped to `[0, 1]`.
  The laws the two programs differ by: `|s|^3 · sign s = s · s · s` on every extended real, a finite number minus
  itself is zero, and a sum over 16384 examples is the sum over 16 runs of 1024.
-/
import Idealize.ShloMosaic.PureOps.Ideal
import Idealize.ShloMosaic.PureOps.Ideal.Laws
import Mathlib.Algebra.BigOperators.Fin
import Mathlib.Analysis.SpecialFunctions.Pow.Real

noncomputable section

namespace Cert.Spec

open Idealize.ShloMosaic

/-- The norm's lower clamp: the one literal both programs spell. -/
def eps : EReal := Ideal.ofBits .f32 0x2B8CBCCC#32

/-- The literal one: the clip's upper end and the class count's lower clamp. -/
def one : EReal := Ideal.ofBits .f32 0x3F800000#32

/-- Row `r` of `x · gwᵀ + gb` at column `j`. -/
def proj {R : Type} (x : R → Fin 1024 → EReal) (gw : Fin 512 → Fin 1024 → EReal) (gb : Fin 512 → EReal)
    (r : R) (j : Fin 512) : EReal :=
  (∑ k : Fin 1024, x r k * gw j k) + gb j

/-- A row over its Euclidean norm, the norm clamped below at `eps`. -/
def unitRow (p : Fin 512 → EReal) (j : Fin 512) : EReal :=
  Ideal.div (p j) (max (Ideal.sqrt (∑ l : Fin 512, p l * p l)) eps)

/-- The inner product of two rows. -/
def dot (f e : Fin 512 → EReal) : EReal := ∑ j : Fin 512, f j * e j

/-- The odd power. -/
def cube (s : EReal) : EReal := s * s * s

/-- The activations of one query row against the classes of column `c`, summed over the examples. -/
def echo (a ec : Fin 16384 → EReal) : EReal := ∑ n : Fin 16384, a n * ec n

/-- A class's count, clamped below at one. -/
def count (ec : Fin 16384 → EReal) : EReal := max one (∑ n : Fin 16384, ec n)

/-- The clip to `[0, 1]`. -/
def clip01 (x : EReal) : EReal := min one (max 0 x)

/-- The whole function: entry `(i, c)` of the result. -/
def result (X : Fin 8192 → Fin 1024 → EReal) (E : Fin 16384 → Fin 1024 → EReal)
    (gw : Fin 512 → Fin 1024 → EReal) (gb : Fin 512 → EReal) (ec : Fin 16384 → Fin 28 → EReal)
    (i : Fin 8192) (c : Fin 28) : EReal :=
  clip01 (Ideal.div
    (echo (fun n => cube (dot (unitRow (proj X gw gb i)) (unitRow (proj E gw gb n)))) (fun n => ec n c))
    (count fun n => ec n c))

/-! ## The laws -/

/-- `3.0` denotes the real three. -/
theorem ofBits_three : Ideal.ofBits .f32 0x40400000#32 = ((3 : ℝ) : EReal) := by
  simp [Ideal.ofBits, Ideal.ieee, -EReal.coe_mul]; norm_num

/-- `|s|^3 · sign s` is `s · s · s` on every extended real: on the finite `|r|³ · sign r = r³`, and at the two
    infinities both sides are the infinity itself. -/
theorem abs_pow_three_mul_sign (s : EReal) :
    Ideal.pow (max s (-s)) (Ideal.ofBits .f32 0x40400000#32) * Ideal.sign s = s * s * s := by
  rw [ofBits_three]
  induction s using EReal.rec with
  | bot => simp [Ideal.pow_top]
  | top => simp [Ideal.pow_top]
  | coe r =>
    have h1 : max (r : EReal) (-(r : EReal)) = ((|r| : ℝ) : EReal) := by
      rw [abs_eq_max_neg, EReal.coe_strictMono.monotone.map_max, EReal.coe_neg]
    rw [h1, Ideal.pow_coe_coe, Ideal.sign_coe, ← EReal.coe_mul, ← EReal.coe_mul, ← EReal.coe_mul]
    congr 1
    show Real.rpow |r| 3 * _ = _
    rw [show (3 : ℝ) = ((3 : ℕ) : ℝ) by norm_num, Real.rpow_eq_pow, Real.rpow_natCast]
    rcases lt_trichotomy r 0 with h | h | h
    · rw [abs_of_neg h, sign_neg h]; simp; ring
    · subst h; simp
    · rw [abs_of_pos h, sign_pos h]; simp; ring

/-- A finite number minus itself is zero. -/
theorem sub_self_of_real {x : EReal} (h : ∃ r : ℝ, x = r) : x - x = 0 := by
  obtain ⟨r, rfl⟩ := h
  rw [← EReal.coe_sub, sub_self, EReal.coe_zero]

/-- A sum over 16384 is the sum over 16 runs of 1024. -/
theorem sum_runs {M : Type} [AddCommMonoid M] (f : Fin 16384 → M) :
    ∑ k : Fin 16, ∑ n : Fin 1024, f ⟨1024 * k.val + n.val, by have := k.isLt; have := n.isLt; omega⟩ = ∑ n : Fin 16384, f n := by
  have h := Equiv.sum_comp (finProdFinEquiv (m := 16) (n := 1024)) f
  rw [Fintype.sum_prod_type] at h
  refine Eq.trans (Finset.sum_congr rfl fun k _ => Finset.sum_congr rfl fun n _ => congrArg f (Fin.ext ?_)) h
  simp [finProdFinEquiv]; omega

end Cert.Spec

end
-- ==== Proof.Finite.lean ====
/-
  The precondition read back: it is the conjunction, over the five argument arrays, of "every entry's absolute
  value is below +∞"; on the extended reals that says every entry is a real number. The projection needs it of the
  two feature arrays and of the weight (a finite number minus itself is zero).
-/
import proofs.«413376_j10969346474460_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx Cert.Pre_finite_inputs

instance : Subsingleton S_.Idx := ⟨fun a b => funext fun d => d.elim0⟩

/-- The pattern of +∞ denotes the top of the extended reals. -/
theorem ofBits_inf : Ideal.ofBits .f32 0x7F800000#32 = (⊤ : EReal) := by
  simp [Ideal.ofBits, Ideal.ieee]

/-- An extended real whose absolute value `max x (-x)` is below +∞ is a real number. -/
theorem real_of_abs_lt_top (x : EReal)
    (h : FloatOps.cmpf (F := Ideal) (φ := .f32) .olt (FloatOps.absf x) (Ideal.ofBits .f32 0x7F800000#32) = 1#1) :
    ∃ r : ℝ, x = (r : EReal) := by
  rw [Ideal.cmpf_def, Ideal.absf_def, ofBits_inf] at h
  induction x using EReal.rec with
  | bot => simp [Ideal.cmp] at h
  | top => simp [Ideal.cmp] at h
  | coe r => exact ⟨r, rfl⟩

variable [Facts]

/-- Under the precondition the two feature arrays and the weight hold real numbers. -/
theorem real_of_pre (a0 : FVec Ideal S8192x1024 .f32) (a1 : FVec Ideal S16384x1024 .f32) (a2 : FVec Ideal S512x1024 .f32)
    (a3 : FVec Ideal S512 .f32) (a4 : FVec Ideal S16384x28 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [fn, fn_part1] at h0
  obtain ⟨h18, -⟩ := IntOp.andi_eq_one.1 h0
  obtain ⟨h13, -⟩ := IntOp.andi_eq_one.1 h18
  obtain ⟨h8, h12⟩ := IntOp.andi_eq_one.1 h13
  obtain ⟨h3, h7⟩ := IntOp.andi_eq_one.1 h8
  refine ⟨fun i => real_of_abs_lt_top _ ?_, fun i => real_of_abs_lt_top _ ?_, fun i => real_of_abs_lt_top _ ?_⟩
  · exact Host.reduce_andi_all _ _ _ _ _ h3 i
  · exact Host.reduce_andi_all _ _ _ _ _ h7 i
  · exact Host.reduce_andi_all _ _ _ _ _ h12 i

end Cert.Finite

end
-- ==== Proof.KArgs.lean ====
/-
  The five argument arrays as launched, on a device, each named with its literal shape.
-/
import proofs.«413376_j10969346474460_3_alg».proof.Proof.Gen.KernelIdeal.Frame
import proofs.«413376_j10969346474460_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostV

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The five argument arrays at launch, each as an array of its literal type. -/
abbrev arg0 (c : Dev nD) : Vec Ideal S8192x1024 .f32 := m ((c : Thread nD τ).loc main_arg0)
abbrev arg1 (c : Dev nD) : Vec Ideal S16384x1024 .f32 := m ((c : Thread nD τ).loc main_arg1)
abbrev arg2 (c : Dev nD) : Vec Ideal S512x1024 .f32 := m ((c : Thread nD τ).loc main_arg2)
abbrev arg3 (c : Dev nD) : Vec Ideal S512 .f32 := m ((c : Thread nD τ).loc main_arg3)
abbrev arg4 (c : Dev nD) : Vec Ideal S16384x28 .f32 := m ((c : Thread nD τ).loc main_arg4)

end Cert.KernelIdeal.HostV

end
-- ==== Proof.KHostA.lean ====
/-
  What the two projection regions find in their arrays: the query (example) features as launched; the transposed
  weight, whose high half is the weight itself (a change of float format is the identity at the ideal values) and
  whose low half is the weight minus itself, zero where the weight is finite; the bias laid out as one row. Region 0
  reads the weight halves and the bias through input windows and writes none of them, so region 1 finds them as
  region 0 did.
-/
import proofs.«413376_j10969346474460_3_alg».proof.Proof.Gen.KernelIdeal.Frame
import proofs.«413376_j10969346474460_3_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«413376_j10969346474460_3_alg».proof.Proof.KArgs
import Idealize.ShloMosaic.Lib.StableHlo.Run
import Idealize.ShloMosaic.Lib.KernelVsHost

noncomputable section

namespace Cert.KernelIdeal.HostV

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What the two projection regions find: the host operations before them -/

/-- No host operation before region 0 writes the query features. -/
private theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- Nor the example features. -/
private theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- The transposed weight: entry (k, j) of the transpose is entry (j, k) of the weight. -/
private abbrev gwT (c : Dev nD) : FVec Ideal S1024x512 .f32 :=
  transpose S1024x512 [1, 0] (arg2 m c) transposes_S512x1024_S1024x512_1_0

private theorem gwT_apply (c : Dev nD) (k : Fin 1024) (j : Fin 512) : gwT m c (ix2 k j) = arg2 m c (ix2 j k) :=
  transpose_apply [1, 0] (arg2 m c) transposes_S512x1024_S1024x512_1_0 (ix2 k j) (ix2 j k) (by
    intro b; match b with | ⟨0, _⟩ => rfl | ⟨1, _⟩ => rfl)

/-- The high half as a term of the launch memory. -/
private theorem V1_v2_eq (c : Dev nD) :
    @Eq (FVec Ideal S1024x512 .bf16) (V1 m ρ c main_v2) (truncf (F := Ideal) (s := S1024x512) (φ := .f32) .bf16 (gwT m c) bitsLt_bf16_f32) := by
  show StableHlo.after hostOps0 (W0 m ρ c) (Proc.devRef .tc main_v2) = _
  after_results

/-- The low half as a term of the launch memory. -/
private theorem V1_v5_eq (c : Dev nD) :
    @Eq (FVec Ideal S1024x512 .bf16) (V1 m ρ c main_v5)
      (truncf (F := Ideal) (s := S1024x512) (φ := .f32) .bf16
        (subf (F := Ideal) (s := S1024x512) (φ := .f32) (gwT m c)
          (extf (F := Ideal) (s := S1024x512) (φ := .bf16) .f32
            (truncf (F := Ideal) (s := S1024x512) (φ := .f32) .bf16 (gwT m c) bitsLt_bf16_f32) bitsLt_bf16_f32)) bitsLt_bf16_f32) := by
  show StableHlo.after hostOps0 (W0 m ρ c) (Proc.devRef .tc main_v5) = _
  after_results

/-- The bias row as a term of the launch memory. -/
private theorem V1_v1_eq (c : Dev nD) :
    @Eq (Vec Ideal S1x512 .f32) (V1 m ρ c main_v1) (shapeCast S1x512 (arg3 m c) shapeCasts_S512_S1x512) := by
  show StableHlo.after hostOps0 (W0 m ρ c) (Proc.devRef .tc main_v1) = _
  after_results
  rfl

/-- Region 0 finds the query features as launched. -/
theorem V1_feat (c : Dev nD) (i : S8192x1024.Idx) : (V1 m ρ c main_arg0 : Vec Ideal S8192x1024 .f32) i = arg0 m c i :=
  congrFun (W1_arg0 m ρ c) i

/-- The high half of the transposed weight is the transposed weight: a change of format is the identity. -/
theorem V1_gwHi (c : Dev nD) (k : Fin 1024) (j : Fin 512) :
    (V1 m ρ c main_v2 : Vec Ideal S1024x512 .bf16) (ix2 k j) = arg2 m c (ix2 j k) :=
  (congrFun (V1_v2_eq m ρ c) (ix2 k j)).trans (gwT_apply m c k j)

/-- The low half is the transposed weight minus itself: zero where the weight is finite. -/
theorem V1_gwLo (c : Dev nD) (hfin : ∀ i, ∃ x : ℝ, arg2 m c i = (x : EReal)) (i : S1024x512.Idx) :
    (V1 m ρ c main_v5 : Vec Ideal S1024x512 .bf16) i = (0 : EReal) := by
  have h : ∀ (k : Fin 1024) (j : Fin 512),
      (V1 m ρ c main_v5 : Vec Ideal S1024x512 .bf16) (ix2 k j) = (0 : EReal) := fun k j => by
    refine (congrFun (V1_v5_eq m ρ c) (ix2 k j)).trans ?_
    show gwT m c (ix2 k j) - gwT m c (ix2 k j) = (0 : EReal)
    refine Cert.Spec.sub_self_of_real ?_
    rw [gwT_apply]
    exact hfin _
  have e : i = ix2 (n0 := 1024) (n1 := 512) (i 0) (i 1) := eq_ix2 (n0 := 1024) (n1 := 512) i
  exact (congrArg (V1 m ρ c main_v5 : Vec Ideal S1024x512 .bf16) e).trans (h (i 0) (i 1))

/-- The bias as a row. -/
theorem V1_bias (c : Dev nD) (j : Fin 512) :
    (V1 m ρ c main_v1 : Vec Ideal S1x512 .f32) (ix2 (0 : Fin 1) j) = arg3 m c (ix1 j) := by
  refine (congrFun (V1_v1_eq m ρ c) (ix2 (0 : Fin 1) j)).trans ?_
  refine (shapeCast_addUnit_apply ![512] (arg3 m c) shapeCasts_S512_S1x512 (ix2 (0 : Fin 1) j)).trans ?_
  exact congrArg (arg3 m c) (funext fun a => match a with | ⟨0, _⟩ => rfl)

/-- Region 1 finds the example features as launched, and the weight halves and the bias as region 0 found them:
    region 0 read them through input windows and wrote none of them. -/
theorem V2_feat (c : Dev nD) (i : S16384x1024.Idx) : (V2 m ρ c main_arg1 : Vec Ideal S16384x1024 .f32) i = arg1 m c i :=
  congrFun ((W2_of_ne m ρ c main_arg1 (by decide)).trans (W1_arg1 m ρ c)) i
theorem V2_gwHi (c : Dev nD) (i : S1024x512.Idx) :
    (V2 m ρ c main_v2 : Vec Ideal S1024x512 .bf16) i = (V1 m ρ c main_v2 : Vec Ideal S1024x512 .bf16) i :=
  congrFun (((W2_arr m ρ c 1).trans (((dat0 (V1 m ρ) c).arrAt_in 1 rfl _).trans (A_eq0 (V1 m ρ) c 1))) :
    W2 m ρ c (Proc.devRef .tc main_v2) = W1 m ρ c (Proc.devRef .tc main_v2)) i
theorem V2_gwLo (c : Dev nD) (i : S1024x512.Idx) :
    (V2 m ρ c main_v5 : Vec Ideal S1024x512 .bf16) i = (V1 m ρ c main_v5 : Vec Ideal S1024x512 .bf16) i :=
  congrFun (((W2_arr m ρ c 2).trans (((dat0 (V1 m ρ) c).arrAt_in 2 rfl _).trans (A_eq0 (V1 m ρ) c 2))) :
    W2 m ρ c (Proc.devRef .tc main_v5) = W1 m ρ c (Proc.devRef .tc main_v5)) i
theorem V2_bias (c : Dev nD) (i : S1x512.Idx) :
    (V2 m ρ c main_v1 : Vec Ideal S1x512 .f32) i = (V1 m ρ c main_v1 : Vec Ideal S1x512 .f32) i :=
  congrFun (((W2_arr m ρ c 3).trans (((dat0 (V1 m ρ) c).arrAt_in 3 rfl _).trans (A_eq0 (V1 m ρ) c 3))) :
    W2 m ρ c (Proc.devRef .tc main_v1) = W1 m ρ c (Proc.devRef .tc main_v1)) i

end Cert.KernelIdeal.HostV

end
-- ==== Proof.KHostB.lean ====
/-
  What the fused region finds in its arrays, and what the program returns. No operation between the projection
  regions and the fused region writes their outputs, so its query and example rows are what regions 0 and 1 left;
  its classes are the class matrix padded with zero columns to 128 (inside the first 28 columns the matrix itself);
  its counts are the column sums from zero, clamped below at one, padded with ones to 128 and laid out as a row
  (inside the first 28 columns the clamped column sum). The result is the first 28 columns of the fused region's
  output.
-/
import proofs.«413376_j10969346474460_3_alg».proof.Proof.Gen.KernelIdeal.Frame
import proofs.«413376_j10969346474460_3_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«413376_j10969346474460_3_alg».proof.Proof.KArgs
import Idealize.ShloMosaic.Lib.StableHlo.Run
import Idealize.ShloMosaic.Lib.KernelVsHost

noncomputable section

namespace Cert.KernelIdeal.HostV

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- A buffer none of a stretch's operations writes is as it was before the stretch. -/
local macro "not_written" : tactic => `(tactic| (
  refine StableHlo.after_of_forall_not_mem _ _ (List.forall_iff_forall_mem.mp ?_)
  simp only [hostOps0, hostOps2, hostOps2_1, hostOps2_2, hostOps2_3, hostOps2_4, hostOps2_5, hostOps2_6, hostOps3,
    List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Buffers the seven stretches leave alone -/

/-- The query rows' buffer is written by none of the seven stretches. -/
theorem W10_v6 (c : Dev nD) : W10 m ρ c (Proc.devRef .tc main_v6) = W3 m ρ c (Proc.devRef .tc main_v6) :=
  calc W10 m ρ c (Proc.devRef .tc main_v6)
    _ = W9 m ρ c (Proc.devRef .tc main_v6) := by not_written
    _ = W8 m ρ c (Proc.devRef .tc main_v6) := by not_written
    _ = W7 m ρ c (Proc.devRef .tc main_v6) := by not_written
    _ = W6 m ρ c (Proc.devRef .tc main_v6) := by not_written
    _ = W5 m ρ c (Proc.devRef .tc main_v6) := by not_written
    _ = W4 m ρ c (Proc.devRef .tc main_v6) := by not_written
    _ = W3 m ρ c (Proc.devRef .tc main_v6) := by not_written

/-- The example rows' buffer is written by none of the seven stretches. -/
theorem W10_v7 (c : Dev nD) : W10 m ρ c (Proc.devRef .tc main_v7) = W3 m ρ c (Proc.devRef .tc main_v7) :=
  calc W10 m ρ c (Proc.devRef .tc main_v7)
    _ = W9 m ρ c (Proc.devRef .tc main_v7) := by not_written
    _ = W8 m ρ c (Proc.devRef .tc main_v7) := by not_written
    _ = W7 m ρ c (Proc.devRef .tc main_v7) := by not_written
    _ = W6 m ρ c (Proc.devRef .tc main_v7) := by not_written
    _ = W5 m ρ c (Proc.devRef .tc main_v7) := by not_written
    _ = W4 m ρ c (Proc.devRef .tc main_v7) := by not_written
    _ = W3 m ρ c (Proc.devRef .tc main_v7) := by not_written

/-- The padded classes' buffer is written by none of the last four stretches. -/
theorem W10_v9 (c : Dev nD) : W10 m ρ c (Proc.devRef .tc main_v9) = W6 m ρ c (Proc.devRef .tc main_v9) :=
  calc W10 m ρ c (Proc.devRef .tc main_v9)
    _ = W9 m ρ c (Proc.devRef .tc main_v9) := by not_written
    _ = W8 m ρ c (Proc.devRef .tc main_v9) := by not_written
    _ = W7 m ρ c (Proc.devRef .tc main_v9) := by not_written
    _ = W6 m ρ c (Proc.devRef .tc main_v9) := by not_written

/-- The class matrix is, after both projections, still the argument as launched: neither region and no operation
    of the first stretch writes it. -/
theorem W3_arg4 (c : Dev nD) : W3 m ρ c (Proc.devRef .tc main_arg4) = arg4 m c :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := by not_written
    _ = arg4 m c := rfl

/-! ## What the stretches wrote: each buffer as the operations' term over the class matrix -/

/-- The padded classes: the class matrix padded on the right to 128 columns, the format change applied. -/
theorem W6_v9 (c : Dev nD) :
    @Eq (Vec Ideal S16384x128 .bf16) (W6 m ρ c (Proc.devRef .tc main_v9))
      (truncf (F := Ideal) .bf16 (pad S16384x128 ![0, 0] ![0, 100] ![0, 0]
          (W3 m ρ c (Proc.devRef .tc main_arg4) : Vec Ideal S16384x28 .f32)
          (sitofp (F := Ideal) .f32 (constantI S_ 32 0#32))
          pads_S16384x28_S16384x128_000_01000 h_S_) bitsLt_bf16_f32) := by
  show StableHlo.after hostOps2_2 (W5 m ρ c) (Proc.devRef .tc main_v9) = _
  after_results
  rfl

/-- The padded counts: the column sums of the class matrix, clamped below at one, padded on the right with ones
    to 128, a unit axis put in front. -/
theorem W10_v13 (c : Dev nD) :
    @Eq (Vec Ideal S1x128 .f32) (W10 m ρ c (Proc.devRef .tc main_v13))
      (shapeCast S1x128 (pad S128 ![0] ![100] ![0]
          (maximumf (broadcastInDim S28 ![] bcast_S_S28 (constant (F := Ideal) S_ .f32 0x3F800000#32))
            (Host.reduceAdd (W3 m ρ c (Proc.devRef .tc main_arg4) : Vec Ideal S16384x28 .f32)
              (constant (F := Ideal) S_ .f32 0x00000000#32) reducesTo_S16384x28_S28_d0 h_S_))
          (constant (F := Ideal) S_ .f32 0x3F800000#32) pads_S28_S128_01000 h_S_) shapeCasts_S128_S1x128) := by
  show StableHlo.after hostOps2_6 (W9 m ρ c) (Proc.devRef .tc main_v13) = _
  after_results
  rfl

/-! ## The operations read at an index -/

/-- The column sum of a matrix, from zero, at column `l`: the sum of the column. -/
theorem reduce_col (X : Vec Ideal S16384x28 .f32) (l : Fin 28) :
    (Host.reduceAdd X (constant (F := Ideal) S_ .f32 0x00000000#32) reducesTo_S16384x28_S28_d0 h_S_ : Vec Ideal S28 .f32) (ix1 l)
      = ∑ n : Fin 16384, X (ix2 n l) := by
  have h : S16384x28.Reduces [0] S28 := by decide
  refine (Ideal.hostReduceAdd_single reducesTo_S16384x28_S28_d0 h X _ (ix1 l)).trans ?_
  rw [constant_apply, Ideal.ofBits_zero_f32, zero_add]
  refine Finset.sum_congr rfl fun n _ => congrArg X ?_
  funext a
  match a with
  | ⟨0, _⟩ => rfl
  | ⟨1, _⟩ => rfl

/-- A matrix padded on the right, read inside the original columns, is the matrix. -/
theorem pad_cols (X : Vec Ideal S16384x28 .f32) (v : Vec Ideal S_ .f32) (n : Fin 16384) (l : Fin 28) :
    pad S16384x128 ![0, 0] ![0, 100] ![0, 0] X v pads_S16384x28_S16384x128_000_01000 h_S_
        (ix2 n (Fin.castLE (by decide) l : Fin 128)) = X (ix2 n l) :=
  pad_apply_of_inside _ _ _ X v _ h_S_ _ (ix2 n l) (fun a => by
    match a with
    | ⟨0, _⟩ => show n.val = 0 + n.val * (0 + 1); omega
    | ⟨1, _⟩ => show l.val = 0 + l.val * (0 + 1); omega)

/-- A vector padded on the right, read inside the original extent, is the vector. -/
theorem pad_vec (x : Vec Ideal S28 .f32) (v : Vec Ideal S_ .f32) (l : Fin 28) :
    pad S128 ![0] ![100] ![0] x v pads_S28_S128_01000 h_S_ (ix1 (Fin.castLE (by decide) l : Fin 128)) = x (ix1 l) :=
  pad_apply_of_inside _ _ _ x v _ h_S_ _ (ix1 l) (fun a => by
    match a with
    | ⟨0, _⟩ => show l.val = 0 + l.val * (0 + 1); omega)

/-- The returned buffer: the fused region's output cut to its first 28 columns. -/
theorem W12_v15 (c : Dev nD) :
    @Eq (Vec Ideal S8192x28 .f32) (W12 m ρ c (Proc.devRef .tc main_v15))
      (extractStridedSlice S8192x28 ![0, 0] (W11 m ρ c (Proc.devRef .tc main_v14) : Vec Ideal S8192x128 .f32)
        slices_S8192x128_S8192x28_0_0) := by
  show StableHlo.after hostOps3 (W11 m ρ c) (Proc.devRef .tc main_v15) = _
  after_results

/-! ## What the fused region finds, and what the last host operation returns -/

/-- The fused region finds, as its query rows, what region 0 left, -/
theorem V10_qry (c : Dev nD) (i : S8192x512.Idx) :
    (V10 m ρ c main_v6 : Vec Ideal S8192x512 .bf16) i = ((dat0 (F := Ideal) (V1 m ρ) c).arrAt 4 cfg0.N : Vec Ideal S8192x512 .bf16) i := by
  have h : W10 m ρ c (Proc.devRef .tc main_v6) = (dat0 (F := Ideal) (V1 m ρ) c).arrAt 4 cfg0.N :=
    (W10_v6 m ρ c).trans ((W3_of_ne m ρ c main_v6 (by decide)).trans (W2_arr m ρ c 4))
  exact congrFun h i

/-- as its example rows, what region 1 left, -/
theorem V10_exm (c : Dev nD) (i : S16384x512.Idx) :
    (V10 m ρ c main_v7 : Vec Ideal S16384x512 .bf16) i = ((dat1 (F := Ideal) (V2 m ρ) c).arrAt 4 cfg1.N : Vec Ideal S16384x512 .bf16) i := by
  have h : W10 m ρ c (Proc.devRef .tc main_v7) = (dat1 (F := Ideal) (V2 m ρ) c).arrAt 4 cfg1.N :=
    (W10_v7 m ρ c).trans (W3_arr m ρ c 4)
  exact congrFun h i

/-- as its classes, the class matrix padded on the right: inside the first 28 columns the matrix itself, -/
theorem V10_cls (c : Dev nD) (n : Fin 16384) (l : Fin 28) :
    (V10 m ρ c main_v9 : Vec Ideal S16384x128 .bf16) (ix2 n (Fin.castLE (by decide) l : Fin 128)) = arg4 m c (ix2 n l) := by
  refine (congrFun ((W10_v9 m ρ c).trans (W6_v9 m ρ c)) _).trans ?_
  refine (truncf_apply (ψ := .bf16) (φ := .f32) _ bitsLt_bf16_f32 _).trans ?_
  refine (pad_cols _ _ n l).trans ?_
  exact congrFun (W3_arg4 m ρ c) (ix2 n l)

/-- and as its counts, the column sums clamped below at one, padded on the right: inside the first 28 columns the
    clamped column sum. -/
theorem V10_cnt (c : Dev nD) (l : Fin 28) :
    (V10 m ρ c main_v13 : Vec Ideal S1x128 .f32) (ix2 (0 : Fin 1) (Fin.castLE (by decide) l : Fin 128))
      = Spec.count (fun n => arg4 m c (ix2 n l)) := by
  refine (congrFun (W10_v13 m ρ c) _).trans ?_
  refine (shapeCast_a_1a_apply _ _ (0 : Fin 1) _).trans ?_
  refine (pad_vec _ _ l).trans ?_
  refine (maximumf_apply _ _ _).trans ?_
  unfold Spec.count Spec.one
  refine congrArg₂ max ?_ ?_
  · exact broadcastInDim_apply _ bcast_S_S28 _ (ix1 l) ix0 (fun a => a.elim0)
  · refine (reduce_col _ l).trans ?_
    exact Finset.sum_congr rfl fun n _ => congrFun (W3_arg4 m ρ c) (ix2 n l)

/-- The result is the first 28 columns of what the fused region left. -/
theorem W12_out (c : Dev nD) (i : Fin 8192) (l : Fin 28) :
    (W12 m ρ c (Proc.devRef .tc main_v15) : Vec Ideal S8192x28 .f32) (ix2 i l)
      = ((dat2 (F := Ideal) (V10 m ρ) c).arrAt 4 cfg2.N : Vec Ideal S8192x128 .f32) (ix2 i (Fin.castLE (by decide) l : Fin 128)) := by
  refine (congrFun (W12_v15 m ρ c) _).trans ?_
  refine (slice2_axis1_apply 0 _ _ i l (Fin.castLE (by decide) l : Fin 128) (by show l.val = 0 + l.val; omega)).trans ?_
  exact congrFun (W11_arr m ρ c 4) _

end Cert.KernelIdeal.HostV

end
-- ==== Proof.Region0.lean ====
/-
  A projection region, block by block. A grid point takes 512 feature rows `x`, the two halves of the transposed
  weight and the bias row, and stores the rows of `p = x · hi + x · lo + (x - x) · hi + b` each divided by its Euclidean
  norm clamped below at the literal `ε`. With finite features the third product's left factor is zero, with a zero
  low half the second product is a sum of zeros, so `p` is `Spec.proj` and the stored row `Spec.unitRow` of it
  (`payload_apply`). The output's 512-row blocks tile the array in point order, so the array the region leaves is the
  unit row of every projected feature row (`final`, `value`).
-/
import proofs.«413376_j10969346474460_3_alg».proof.Proof.Gen.KernelIdeal.Frame
import proofs.«413376_j10969346474460_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

/-! ## One block: the product of a row block with the transposed weight, read at an index -/

/-- The left operand of the product at output entry `(i, ·)` and contraction coordinate `q` sits in row `i` … -/
theorem lhs_row (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
/-- … and column `q`; -/
theorem lhs_col (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
/-- the right operand in row `q` … -/
theorem rhs_row (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
/-- … and the output's column. -/
theorem rhs_col (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- A product of a `[512, 1024]` block with a `[1024, 512]` matrix into the zero accumulator, at entry `(p, q)`:
    the sum over the 1024 shared coordinates. -/
theorem matmul_at (a : FVec Ideal S512x1024 .bf16) (b : FVec Ideal S1024x512 .bf16) (p q : Fin 512) :
    matmul dot_S512x1024_S1024x512_S512x512_1_0_0_1_n_n none a b (constant (F := Ideal) S512x512 .f32 0x00000000#32) (ix2 p q)
      = ∑ k : Fin 1024, a (ix2 p k) * b (ix2 k q) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p q) ((contrEquiv1 dot_S512x1024_S1024x512_S512x512_1_0_0_1_n_n 1024 rfl rfl).symm k) = ix2 p k := funext fun ax => Fin.ext (by
    match ax with
    | ⟨0, _⟩ => exact lhs_row _ _
    | ⟨1, _⟩ => exact (lhs_col _ _).trans hk)
  have er : dot_S512x1024_S1024x512_S512x512_1_0_0_1_n_n.rhsIdx (ix2 p q) ((contrEquiv1 dot_S512x1024_S1024x512_S512x512_1_0_0_1_n_n 1024 rfl rfl).symm k) = ix2 k q := funext fun ax => Fin.ext (by
    match ax with
    | ⟨0, _⟩ => exact (rhs_row _ _).trans hk
    | ⟨1, _⟩ => exact rhs_col _ _)
  rw [el, er]

/-! ## The block's arithmetic in two halves: the projected rows, then each row over its clamped norm -/

/-- The projected rows of one block: the high half of `x` times both halves of the weight, the low half `x - x` times the
    high half of the weight, each product into a zero accumulator, added, plus the bias row on every row. -/
def projBlock (x0 : FVec Ideal S512x1024 .f32) (x1 x2 : FVec Ideal S1024x512 .bf16) (x3 : FVec Ideal S1x512 .f32) :
    FVec Ideal S512x512 .f32 :=
  addf (addf (addf
      (matmul dot_S512x1024_S1024x512_S512x512_1_0_0_1_n_n none (truncf .bf16 x0 bitsLt_bf16_f32)
        (shapeCast S1024x512 x1 shapeCasts_S1024x512_S1024x512) (constant S512x512 .f32 0x00000000#32))
      (matmul dot_S512x1024_S1024x512_S512x512_1_0_0_1_n_n none (truncf .bf16 x0 bitsLt_bf16_f32)
        (shapeCast S1024x512 x2 shapeCasts_S1024x512_S1024x512) (constant S512x512 .f32 0x00000000#32)))
      (matmul dot_S512x1024_S1024x512_S512x512_1_0_0_1_n_n none (truncf .bf16 (subf x0 x0) bitsLt_bf16_f32)
        (shapeCast S1024x512 x1 shapeCasts_S1024x512_S1024x512) (constant S512x512 .f32 0x00000000#32)))
    (broadcastTo S512x512 (shapeCast S1x512 x3 shapeCasts_S1x512_S1x512) broadcasts_S1x512_S512x512)

/-- The sum of squares along each row. -/
def rowSq (v : FVec Ideal S512x512 .f32) : FVec Ideal S512 .f32 :=
  multiReduction .add [1] S512 (mulf v v) 0x00000000#32 reduces_S512x512_S512 (.inl rfl) rfl

/-- Each row over its Euclidean norm, the norm clamped below at the literal. -/
def unitBlock (v : FVec Ideal S512x512 .f32) : FVec Ideal S512x512 .bf16 :=
  truncf .bf16
    (divf v (broadcastTo S512x512
      (maximumf (sqrt (shapeCast S512x1 (rowSq v) shapeCasts_S512_S512x1))
        (broadcast S512x1 (Scalar.ofBits .f32 0x2B8CBCCC#32)))
      broadcasts_S512x1_S512x512))
    bitsLt_bf16_f32

/-- The body's one stored value is the second half of the first. -/
theorem pay_eq (x0 : FVec Ideal S512x1024 .f32) (x1 x2 : FVec Ideal S1024x512 .bf16) (x3 : FVec Ideal S1x512 .f32) :
    k0_pay1 (F := Ideal) x0 x1 x2 x3 = unitBlock (projBlock x0 x1 x2 x3) := rfl

/-- The projected rows at entry `(p, q)`: with a finite `x` the low half vanishes, with a zero low weight so does its
    product, and what is left is `x · gwᵀ + gb`. -/
theorem projBlock_apply (x0 : FVec Ideal S512x1024 .f32) (x1 x2 : FVec Ideal S1024x512 .bf16) (x3 : FVec Ideal S1x512 .f32)
    (h0 : ∀ i, ∃ r : ℝ, x0 i = (r : EReal)) (h2 : ∀ i, x2 i = (0 : EReal)) (p q : Fin 512) :
    projBlock x0 x1 x2 x3 (ix2 p q)
      = Spec.proj (R := Fin 512) (fun p k => x0 (ix2 p k)) (fun j k => x1 (ix2 k j)) (fun j => x3 (ix2 (0 : Fin 1) j)) p q := by
  unfold projBlock Spec.proj
  rw [addf_apply, addf_apply, addf_apply, matmul_at, matmul_at, matmul_at, shapeCast_self, shapeCast_self, shapeCast_self,
    broadcastTo_1b_ab_apply]
  have e2 : ∑ k : Fin 1024, (truncf .bf16 x0 bitsLt_bf16_f32 : FVec Ideal S512x1024 .bf16) (ix2 p k) * x2 (ix2 k q) = 0 :=
    Finset.sum_eq_zero fun k _ => by rw [h2, mul_zero]
  have e3 : ∑ k : Fin 1024, (truncf .bf16 (subf x0 x0) bitsLt_bf16_f32 : FVec Ideal S512x1024 .bf16) (ix2 p k) * x1 (ix2 k q) = 0 :=
    Finset.sum_eq_zero fun k _ => by
      rw [truncf_apply, subf_apply, Spec.sub_self_of_real (h0 _), zero_mul]
  rw [e2, e3, add_zero, add_zero]
  rfl

/-- The sum of squares along row `p`. -/
theorem rowSq_apply (v : FVec Ideal S512x512 .f32) (p : Fin 512) :
    rowSq v (ix1 p) = ∑ l : Fin 512, v (ix2 p l) * v (ix2 p l) := by
  unfold rowSq
  refine (Ideal.multiReduction_add_single (mulf v v) 0x00000000#32 reduces_S512x512_S512 (.inl rfl) rfl (ix1 p)).trans ?_
  refine Finset.sum_congr rfl fun l _ => ?_
  rw [mulf_apply]
  have e : reduces_S512x512_S512.lift (ix1 p) l = ix2 p l := funext fun ax => Fin.ext (by
    match ax with
    | ⟨0, _⟩ => rfl
    | ⟨1, _⟩ => rfl)
  rw [e]
  rfl

/-- A column `[512]` cast to `[512, 1]` reads, at `(p, u)`, the column at `p`. -/
theorem col_cast_apply {α : Type} (x : S512.Idx → α) (h : S512.ShapeCasts S512x1) (p : Fin 512) (u : Fin 1) :
    shapeCast S512x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[512, 1]` broadcast to `[512, 512]` reads, at `(p, q)`, the column at `(p, 0)`. -/
theorem col_bcast_apply {α : Type} (x : S512x1.Idx → α) (h : S512x1.Broadcasts S512x512) (p q : Fin 512) :
    broadcastTo S512x512 x h (ix2 p q) = x (ix2 p (0 : Fin 1)) := by
  refine broadcastTo_apply x h (ix2 p q) (ix2 p (0 : Fin 1)) fun ax => ?_
  match ax with
  | ⟨0, _⟩ =>
    show p.val = if (512 : Nat) = 1 then 0 else p.val
    rw [if_neg (by decide)]
  | ⟨1, _⟩ => rfl

/-- Each row over its clamped norm, at entry `(p, q)`. -/
theorem unitBlock_apply (v : FVec Ideal S512x512 .f32) (p q : Fin 512) :
    unitBlock v (ix2 p q) = Spec.unitRow (fun l => v (ix2 p l)) q := by
  unfold unitBlock Spec.unitRow
  rw [truncf_apply, divf_apply, col_bcast_apply, maximumf_apply, broadcast_apply]
  show Ideal.div _ (max (Ideal.sqrt (shapeCast S512x1 (rowSq v) shapeCasts_S512_S512x1 (ix2 p (0 : Fin 1)))) _) = _
  rw [col_cast_apply, rowSq_apply]
  rfl

/-- THE BODY'S STORED VALUE at entry `(p, q)` of a block: the unit row of `x · gwᵀ + gb`. -/
theorem payload_apply (x0 : FVec Ideal S512x1024 .f32) (x1 x2 : FVec Ideal S1024x512 .bf16) (x3 : FVec Ideal S1x512 .f32)
    (h0 : ∀ i, ∃ r : ℝ, x0 i = (r : EReal)) (h2 : ∀ i, x2 i = (0 : EReal)) (p q : Fin 512) :
    k0_pay1 (F := Ideal) x0 x1 x2 x3 (ix2 p q)
      = Spec.unitRow (Spec.proj (R := Fin 512) (fun p k => x0 (ix2 p k)) (fun j k => x1 (ix2 k j))
          (fun j => x3 (ix2 (0 : Fin 1) j)) p) q := by
  rw [pay_eq, unitBlock_apply]
  exact congrArg (fun f => Spec.unitRow f q) (funext fun l => projBlock_apply x0 x1 x2 x3 h0 h2 p l)

-- the buffers' contents as the region finds them
variable (V : (c : Dev nD) → (b : Ref sig .tc) → Buf (Elt Ideal) ((c : Thread nD τ).loc b))

/-- The features, the two halves of the transposed weight, and the bias row, as the region finds them. -/
abbrev feat (c : Dev nD) : Vec Ideal S8192x1024 .f32 := V c main_arg0
abbrev gwHi (c : Dev nD) : Vec Ideal S1024x512 .bf16 := V c main_v2
abbrev gwLo (c : Dev nD) : Vec Ideal S1024x512 .bf16 := V c main_v5
abbrev bias (c : Dev nD) : Vec Ideal S1x512 .f32 := V c main_v1

/-- What the region leaves in its output array, as an array of its literal type. -/
abbrev outArr (c : Dev nD) : Vec Ideal S8192x512 .bf16 := (dat0 (F := Ideal) V c).arrAt 4 cfg0.N

/-! ## From the blocks to the array -/

theorem zero_offsets : (![0, 0] : Fin 2 → Nat) = fun _ => 0 := funext fun a => by fin_cases a <;> rfl

/-- The projection of a row depends on the row's entries only. -/
theorem proj_congr {R R' : Type} (x : R → Fin 1024 → EReal) (x' : R' → Fin 1024 → EReal)
    (gw gw' : Fin 512 → Fin 1024 → EReal) (gb gb' : Fin 512 → EReal) (r : R) (r' : R')
    (hx : ∀ k, x r k = x' r' k) (hw : ∀ j k, gw j k = gw' j k) (hb : ∀ j, gb j = gb' j) :
    Spec.proj x gw gb r = Spec.proj x' gw' gb' r' := by
  funext j
  unfold Spec.proj
  rw [hb j]
  exact congrArg (· + gb' j) (Finset.sum_congr rfl fun k _ => by rw [hx k, hw j k])

/-- The whole output array as ONE function of the arrays the region finds: row `r` is the unit row of row `r` of
    `x · gwᵀ + gb`. -/
def unitRows (c : Dev nD) : Vec Ideal S8192x512 .bf16 := fun i =>
  Spec.unitRow (Spec.proj (fun r k => feat V c (ix2 r k)) (fun j k => gwHi V c (ix2 k j))
    (fun j => bias V c (ix2 (0 : Fin 1) j)) (⟨(i 0).val, idx2_lt0 i⟩ : Fin 8192)) (⟨(i 1).val, idx2_lt1 i⟩ : Fin 512)

/-- The printed index maps, decided over the grid: the feature window moves down the rows with the output window,
    point `t` at block row `t`; the weight and bias windows stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of `unitRows`. -/
theorem flushed_eq (c : Dev nD) (hfin : ∀ i, ∃ x : ℝ, feat V c i = (x : EReal)) (hlo : ∀ i, gwLo V c i = (0 : EReal))
    (t : Fin cfg0.N) :
    (dat0 (F := Ideal) V c).flushed 4 t = ((cfg0.win 4).blk t).view.read (Elt Ideal) (unitRows V c) := by
  show (cfg0.win 4).cut (grid0.coords t) ((dat0 (F := Ideal) V c).after 4 t) = _
  rw [after0_4]
  unfold out0_4
  rw [View.canon_unit_zero zero_offsets]
  simp only [View.ld_unit_zero (S := S512x1024) zero_offsets, View.ld_unit_zero (S := S1024x512) zero_offsets,
    View.ld_unit_zero (S := S1x512) zero_offsets]
  obtain ⟨e00, e01, e10, e11, e20, e21, e30, e31, e40, e41⟩ := idx_facts t
  funext y
  obtain ⟨p, q, rfl⟩ : ∃ (p : Fin 512) (q : Fin 512), y = ix2 p q := ⟨y 0, y 1, eq_ix2 y⟩
  show k0_pay1 (F := Ideal) (iblk0 V c 0 t) (iblk0 V c 1 t) (iblk0 V c 2 t) (iblk0 V c 3 t) (ix2 p q)
    = unitRows V c (((cfg0.win 4).blk t).view.emb (ix2 p q))
  refine (payload_apply (iblk0 V c 0 t) (iblk0 V c 1 t) (iblk0 V c 2 t) (iblk0 V c 3 t) (fun i => hfin _) (fun i => hlo _) p q).trans ?_
  have hq : (⟨((((cfg0.win 4).blk t).view.emb (ix2 p q)) 1).val, idx2_lt1 _⟩ : Fin 512) = q := Fin.ext (by
    show win0_4.index t (1 : Fin 2) * 512 + 1 * q.val = q.val
    rw [e41]; omega)
  have hrow : Spec.proj (R := Fin 512) (fun p k => iblk0 V c 0 t (ix2 p k)) (fun j k => iblk0 V c 1 t (ix2 k j))
        (fun j => iblk0 V c 3 t (ix2 (0 : Fin 1) j)) p
      = Spec.proj (fun r k => feat V c (ix2 r k)) (fun j k => gwHi V c (ix2 k j)) (fun j => bias V c (ix2 (0 : Fin 1) j))
          (⟨((((cfg0.win 4).blk t).view.emb (ix2 p q)) 0).val, idx2_lt0 _⟩ : Fin 8192) := by
    refine proj_congr _ _ _ _ _ _ _ _ (fun k => ?_) (fun j k => ?_) (fun j => ?_)
    · show feat V c (((cfg0.win 0).blk t).view.emb (ix2 p k)) = feat V c (ix2 _ k)
      refine congrArg (feat V c) (funext fun a => Fin.ext ?_)
      match a with
      | ⟨0, _⟩ =>
        show win0_0.index t (0 : Fin 2) * 512 + 1 * p.val = win0_4.index t (0 : Fin 2) * 512 + 1 * p.val
        rw [e00, e40]
      | ⟨1, _⟩ =>
        show win0_0.index t (1 : Fin 2) * 1024 + 1 * k.val = k.val
        rw [e01]; omega
    · show gwHi V c (((cfg0.win 1).blk t).view.emb (ix2 k j)) = gwHi V c (ix2 k j)
      refine congrArg (gwHi V c) (funext fun a => Fin.ext ?_)
      match a with
      | ⟨0, _⟩ =>
        show win0_1.index t (0 : Fin 2) * 1024 + 1 * k.val = k.val
        rw [e10]; omega
      | ⟨1, _⟩ =>
        show win0_1.index t (1 : Fin 2) * 512 + 1 * j.val = j.val
        rw [e11]; omega
    · show bias V c (((cfg0.win 3).blk t).view.emb (ix2 (0 : Fin 1) j)) = bias V c (ix2 (0 : Fin 1) j)
      refine congrArg (bias V c) (funext fun a => Fin.ext ?_)
      match a with
      | ⟨0, _⟩ =>
        show win0_3.index t (0 : Fin 2) * 1 + 1 * 0 = 0
        rw [e30]
      | ⟨1, _⟩ =>
        show win0_3.index t (1 : Fin 2) * 512 + 1 * j.val = j.val
        rw [e31]; omega
  exact congrArg₂ Spec.unitRow hrow hq.symm

/-- An index of the array is in point `t`'s block iff each coordinate is in the block's range on its axis. -/
theorem mem_blk (t : Fin cfg0.N) (i : S8192x512.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v6).slice (win0_4.rect t)).set ↔ _
  rw [View.set_slice_whole, Rect.mem_set_unit]
  exact Iff.rfl

/-- Every index of the array is in the block of the point its row falls to: row `r` in block `r / 512`. -/
theorem cover (i : S8192x512.Idx) :
    ∃ t : Fin cfg0.N, (cfg0.win 4).flush t = true ∧ i ∈ ((cfg0.win 4).blk t).view.set := by
  have hi0 : (i 0).val < 8192 := (i 0).isLt
  have hi1 : (i 1).val < 512 := (i 1).isLt
  have hN : grid0.N = 16 := N_0
  obtain ⟨t, ht⟩ : ∃ t : Fin cfg0.N, t.val = (i 0).val / 512 := ⟨⟨(i 0).val / 512, by show (i 0).val / 512 < grid0.N; omega⟩, rfl⟩
  obtain ⟨e00, e01, e10, e11, e20, e21, e30, e31, e40, e41⟩ := idx_facts t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    rw [e40, ht]; omega
  | ⟨1, _⟩ =>
    show win0_4.index t (1 : Fin 2) * 512 ≤ (i 1).val ∧ (i 1).val < win0_4.index t (1 : Fin 2) * 512 + 512
    rw [e41]; omega

/-- THE ARRAY after the region: `unitRows` of the arrays the region finds. -/
theorem final (c : Dev nD) (hfin : ∀ i, ∃ x : ℝ, feat V c i = (x : EReal)) (hlo : ∀ i, gwLo V c i = (0 : EReal)) :
    outArr V c = unitRows V c :=
  (dat0 (F := Ideal) V c).arrAt_eq_of_cover 4 (unitRows V c) (fun t _ => flushed_eq V c hfin hlo t) cover

/-- Entry `(r, j)` of the region's output is the unit row of `x · gwᵀ + gb`: with finite features the low half of
    `x` is `x - x = 0`, and with a zero low half of the weight the two correction products vanish. -/
theorem value (c : Dev nD) (hfin : ∀ i, ∃ x : ℝ, feat V c i = (x : EReal)) (hlo : ∀ i, gwLo V c i = (0 : EReal))
    (r : Fin 8192) (j : Fin 512) :
    outArr V c (ix2 r j)
      = Spec.unitRow (Spec.proj (fun r k => feat V c (ix2 r k)) (fun j k => gwHi V c (ix2 k j))
          (fun j => bias V c (ix2 (0 : Fin 1) j)) r) j := by
  rw [final V c hfin hlo]
  rfl

end Cert.KernelIdeal.Region0

end
-- ==== Proof.Region1.lean ====
/-
  A projection region, block by block. A grid point takes 512 feature rows `x`, the two halves of the transposed
  weight and the bias row, and stores the rows of `p = x · hi + x · lo + (x - x) · hi + b` each divided by its Euclidean
  norm clamped below at the literal `ε`. With finite features the third product's left factor is zero, with a zero
  low half the second product is a sum of zeros, so `p` is `Spec.proj` and the stored row `Spec.unitRow` of it
  (`payload_apply`). The output's 512-row blocks tile the array in point order, so the array the region leaves is the
  unit row of every projected feature row (`final`, `value`).
-/
import proofs.«413376_j10969346474460_3_alg».proof.Proof.Gen.KernelIdeal.Frame
import proofs.«413376_j10969346474460_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

/-! ## One block: the product of a row block with the transposed weight, read at an index -/

/-- The left operand of the product at output entry `(i, ·)` and contraction coordinate `q` sits in row `i` … -/
theorem lhs_row (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
/-- … and column `q`; -/
theorem lhs_col (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
/-- the right operand in row `q` … -/
theorem rhs_row (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
/-- … and the output's column. -/
theorem rhs_col (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- A product of a `[512, 1024]` block with a `[1024, 512]` matrix into the zero accumulator, at entry `(p, q)`:
    the sum over the 1024 shared coordinates. -/
theorem matmul_at (a : FVec Ideal S512x1024 .bf16) (b : FVec Ideal S1024x512 .bf16) (p q : Fin 512) :
    matmul dot_S512x1024_S1024x512_S512x512_1_0_0_1_n_n none a b (constant (F := Ideal) S512x512 .f32 0x00000000#32) (ix2 p q)
      = ∑ k : Fin 1024, a (ix2 p k) * b (ix2 k q) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p q) ((contrEquiv1 dot_S512x1024_S1024x512_S512x512_1_0_0_1_n_n 1024 rfl rfl).symm k) = ix2 p k := funext fun ax => Fin.ext (by
    match ax with
    | ⟨0, _⟩ => exact lhs_row _ _
    | ⟨1, _⟩ => exact (lhs_col _ _).trans hk)
  have er : dot_S512x1024_S1024x512_S512x512_1_0_0_1_n_n.rhsIdx (ix2 p q) ((contrEquiv1 dot_S512x1024_S1024x512_S512x512_1_0_0_1_n_n 1024 rfl rfl).symm k) = ix2 k q := funext fun ax => Fin.ext (by
    match ax with
    | ⟨0, _⟩ => exact (rhs_row _ _).trans hk
    | ⟨1, _⟩ => exact rhs_col _ _)
  rw [el, er]

/-! ## The block's arithmetic in two halves: the projected rows, then each row over its clamped norm -/

/-- The projected rows of one block: the high half of `x` times both halves of the weight, the low half `x - x` times the
    high half of the weight, each product into a zero accumulator, added, plus the bias row on every row. -/
def projBlock (x0 : FVec Ideal S512x1024 .f32) (x1 x2 : FVec Ideal S1024x512 .bf16) (x3 : FVec Ideal S1x512 .f32) :
    FVec Ideal S512x512 .f32 :=
  addf (addf (addf
      (matmul dot_S512x1024_S1024x512_S512x512_1_0_0_1_n_n none (truncf .bf16 x0 bitsLt_bf16_f32)
        (shapeCast S1024x512 x1 shapeCasts_S1024x512_S1024x512) (constant S512x512 .f32 0x00000000#32))
      (matmul dot_S512x1024_S1024x512_S512x512_1_0_0_1_n_n none (truncf .bf16 x0 bitsLt_bf16_f32)
        (shapeCast S1024x512 x2 shapeCasts_S1024x512_S1024x512) (constant S512x512 .f32 0x00000000#32)))
      (matmul dot_S512x1024_S1024x512_S512x512_1_0_0_1_n_n none (truncf .bf16 (subf x0 x0) bitsLt_bf16_f32)
        (shapeCast S1024x512 x1 shapeCasts_S1024x512_S1024x512) (constant S512x512 .f32 0x00000000#32)))
    (broadcastTo S512x512 (shapeCast S1x512 x3 shapeCasts_S1x512_S1x512) broadcasts_S1x512_S512x512)

/-- The sum of squares along each row. -/
def rowSq (v : FVec Ideal S512x512 .f32) : FVec Ideal S512 .f32 :=
  multiReduction .add [1] S512 (mulf v v) 0x00000000#32 reduces_S512x512_S512 (.inl rfl) rfl

/-- Each row over its Euclidean norm, the norm clamped below at the literal. -/
def unitBlock (v : FVec Ideal S512x512 .f32) : FVec Ideal S512x512 .bf16 :=
  truncf .bf16
    (divf v (broadcastTo S512x512
      (maximumf (sqrt (shapeCast S512x1 (rowSq v) shapeCasts_S512_S512x1))
        (broadcast S512x1 (Scalar.ofBits .f32 0x2B8CBCCC#32)))
      broadcasts_S512x1_S512x512))
    bitsLt_bf16_f32

/-- The body's one stored value is the second half of the first. -/
theorem pay_eq (x0 : FVec Ideal S512x1024 .f32) (x1 x2 : FVec Ideal S1024x512 .bf16) (x3 : FVec Ideal S1x512 .f32) :
    k1_pay1 (F := Ideal) x0 x1 x2 x3 = unitBlock (projBlock x0 x1 x2 x3) := rfl

/-- The projected rows at entry `(p, q)`: with a finite `x` the low half vanishes, with a zero low weight so does its
    product, and what is left is `x · gwᵀ + gb`. -/
theorem projBlock_apply (x0 : FVec Ideal S512x1024 .f32) (x1 x2 : FVec Ideal S1024x512 .bf16) (x3 : FVec Ideal S1x512 .f32)
    (h0 : ∀ i, ∃ r : ℝ, x0 i = (r : EReal)) (h2 : ∀ i, x2 i = (0 : EReal)) (p q : Fin 512) :
    projBlock x0 x1 x2 x3 (ix2 p q)
      = Spec.proj (R := Fin 512) (fun p k => x0 (ix2 p k)) (fun j k => x1 (ix2 k j)) (fun j => x3 (ix2 (0 : Fin 1) j)) p q := by
  unfold projBlock Spec.proj
  rw [addf_apply, addf_apply, addf_apply, matmul_at, matmul_at, matmul_at, shapeCast_self, shapeCast_self, shapeCast_self,
    broadcastTo_1b_ab_apply]
  have e2 : ∑ k : Fin 1024, (truncf .bf16 x0 bitsLt_bf16_f32 : FVec Ideal S512x1024 .bf16) (ix2 p k) * x2 (ix2 k q) = 0 :=
    Finset.sum_eq_zero fun k _ => by rw [h2, mul_zero]
  have e3 : ∑ k : Fin 1024, (truncf .bf16 (subf x0 x0) bitsLt_bf16_f32 : FVec Ideal S512x1024 .bf16) (ix2 p k) * x1 (ix2 k q) = 0 :=
    Finset.sum_eq_zero fun k _ => by
      rw [truncf_apply, subf_apply, Spec.sub_self_of_real (h0 _), zero_mul]
  rw [e2, e3, add_zero, add_zero]
  rfl

/-- The sum of squares along row `p`. -/
theorem rowSq_apply (v : FVec Ideal S512x512 .f32) (p : Fin 512) :
    rowSq v (ix1 p) = ∑ l : Fin 512, v (ix2 p l) * v (ix2 p l) := by
  unfold rowSq
  refine (Ideal.multiReduction_add_single (mulf v v) 0x00000000#32 reduces_S512x512_S512 (.inl rfl) rfl (ix1 p)).trans ?_
  refine Finset.sum_congr rfl fun l _ => ?_
  rw [mulf_apply]
  have e : reduces_S512x512_S512.lift (ix1 p) l = ix2 p l := funext fun ax => Fin.ext (by
    match ax with
    | ⟨0, _⟩ => rfl
    | ⟨1, _⟩ => rfl)
  rw [e]
  rfl

/-- A column `[512]` cast to `[512, 1]` reads, at `(p, u)`, the column at `p`. -/
theorem col_cast_apply {α : Type} (x : S512.Idx → α) (h : S512.ShapeCasts S512x1) (p : Fin 512) (u : Fin 1) :
    shapeCast S512x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[512, 1]` broadcast to `[512, 512]` reads, at `(p, q)`, the column at `(p, 0)`. -/
theorem col_bcast_apply {α : Type} (x : S512x1.Idx → α) (h : S512x1.Broadcasts S512x512) (p q : Fin 512) :
    broadcastTo S512x512 x h (ix2 p q) = x (ix2 p (0 : Fin 1)) := by
  refine broadcastTo_apply x h (ix2 p q) (ix2 p (0 : Fin 1)) fun ax => ?_
  match ax with
  | ⟨0, _⟩ =>
    show p.val = if (512 : Nat) = 1 then 0 else p.val
    rw [if_neg (by decide)]
  | ⟨1, _⟩ => rfl

/-- Each row over its clamped norm, at entry `(p, q)`. -/
theorem unitBlock_apply (v : FVec Ideal S512x512 .f32) (p q : Fin 512) :
    unitBlock v (ix2 p q) = Spec.unitRow (fun l => v (ix2 p l)) q := by
  unfold unitBlock Spec.unitRow
  rw [truncf_apply, divf_apply, col_bcast_apply, maximumf_apply, broadcast_apply]
  show Ideal.div _ (max (Ideal.sqrt (shapeCast S512x1 (rowSq v) shapeCasts_S512_S512x1 (ix2 p (0 : Fin 1)))) _) = _
  rw [col_cast_apply, rowSq_apply]
  rfl

/-- THE BODY'S STORED VALUE at entry `(p, q)` of a block: the unit row of `x · gwᵀ + gb`. -/
theorem payload_apply (x0 : FVec Ideal S512x1024 .f32) (x1 x2 : FVec Ideal S1024x512 .bf16) (x3 : FVec Ideal S1x512 .f32)
    (h0 : ∀ i, ∃ r : ℝ, x0 i = (r : EReal)) (h2 : ∀ i, x2 i = (0 : EReal)) (p q : Fin 512) :
    k1_pay1 (F := Ideal) x0 x1 x2 x3 (ix2 p q)
      = Spec.unitRow (Spec.proj (R := Fin 512) (fun p k => x0 (ix2 p k)) (fun j k => x1 (ix2 k j))
          (fun j => x3 (ix2 (0 : Fin 1) j)) p) q := by
  rw [pay_eq, unitBlock_apply]
  exact congrArg (fun f => Spec.unitRow f q) (funext fun l => projBlock_apply x0 x1 x2 x3 h0 h2 p l)

-- the buffers' contents as the region finds them
variable (V : (c : Dev nD) → (b : Ref sig .tc) → Buf (Elt Ideal) ((c : Thread nD τ).loc b))

/-- The features, the two halves of the transposed weight, and the bias row, as the region finds them. -/
abbrev feat (c : Dev nD) : Vec Ideal S16384x1024 .f32 := V c main_arg1
abbrev gwHi (c : Dev nD) : Vec Ideal S1024x512 .bf16 := V c main_v2
abbrev gwLo (c : Dev nD) : Vec Ideal S1024x512 .bf16 := V c main_v5
abbrev bias (c : Dev nD) : Vec Ideal S1x512 .f32 := V c main_v1

/-- What the region leaves in its output array, as an array of its literal type. -/
abbrev outArr (c : Dev nD) : Vec Ideal S16384x512 .bf16 := (dat1 (F := Ideal) V c).arrAt 4 cfg1.N

/-! ## From the blocks to the array -/

theorem zero_offsets : (![0, 0] : Fin 2 → Nat) = fun _ => 0 := funext fun a => by fin_cases a <;> rfl

/-- The projection of a row depends on the row's entries only. -/
theorem proj_congr {R R' : Type} (x : R → Fin 1024 → EReal) (x' : R' → Fin 1024 → EReal)
    (gw gw' : Fin 512 → Fin 1024 → EReal) (gb gb' : Fin 512 → EReal) (r : R) (r' : R')
    (hx : ∀ k, x r k = x' r' k) (hw : ∀ j k, gw j k = gw' j k) (hb : ∀ j, gb j = gb' j) :
    Spec.proj x gw gb r = Spec.proj x' gw' gb' r' := by
  funext j
  unfold Spec.proj
  rw [hb j]
  exact congrArg (· + gb' j) (Finset.sum_congr rfl fun k _ => by rw [hx k, hw j k])

/-- The whole output array as ONE function of the arrays the region finds: row `r` is the unit row of row `r` of
    `x · gwᵀ + gb`. -/
def unitRows (c : Dev nD) : Vec Ideal S16384x512 .bf16 := fun i =>
  Spec.unitRow (Spec.proj (fun r k => feat V c (ix2 r k)) (fun j k => gwHi V c (ix2 k j))
    (fun j => bias V c (ix2 (0 : Fin 1) j)) (⟨(i 0).val, idx2_lt0 i⟩ : Fin 16384)) (⟨(i 1).val, idx2_lt1 i⟩ : Fin 512)

/-- The printed index maps, decided over the grid: the feature window moves down the rows with the output window,
    point `t` at block row `t`; the weight and bias windows stay at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of `unitRows`. -/
theorem flushed_eq (c : Dev nD) (hfin : ∀ i, ∃ x : ℝ, feat V c i = (x : EReal)) (hlo : ∀ i, gwLo V c i = (0 : EReal))
    (t : Fin cfg1.N) :
    (dat1 (F := Ideal) V c).flushed 4 t = ((cfg1.win 4).blk t).view.read (Elt Ideal) (unitRows V c) := by
  show (cfg1.win 4).cut (grid1.coords t) ((dat1 (F := Ideal) V c).after 4 t) = _
  rw [after1_4]
  unfold out1_4
  rw [View.canon_unit_zero zero_offsets]
  simp only [View.ld_unit_zero (S := S512x1024) zero_offsets, View.ld_unit_zero (S := S1024x512) zero_offsets,
    View.ld_unit_zero (S := S1x512) zero_offsets]
  obtain ⟨e00, e01, e10, e11, e20, e21, e30, e31, e40, e41⟩ := idx_facts t
  funext y
  obtain ⟨p, q, rfl⟩ : ∃ (p : Fin 512) (q : Fin 512), y = ix2 p q := ⟨y 0, y 1, eq_ix2 y⟩
  show k1_pay1 (F := Ideal) (iblk1 V c 0 t) (iblk1 V c 1 t) (iblk1 V c 2 t) (iblk1 V c 3 t) (ix2 p q)
    = unitRows V c (((cfg1.win 4).blk t).view.emb (ix2 p q))
  refine (payload_apply (iblk1 V c 0 t) (iblk1 V c 1 t) (iblk1 V c 2 t) (iblk1 V c 3 t) (fun i => hfin _) (fun i => hlo _) p q).trans ?_
  have hq : (⟨((((cfg1.win 4).blk t).view.emb (ix2 p q)) 1).val, idx2_lt1 _⟩ : Fin 512) = q := Fin.ext (by
    show win1_4.index t (1 : Fin 2) * 512 + 1 * q.val = q.val
    rw [e41]; omega)
  have hrow : Spec.proj (R := Fin 512) (fun p k => iblk1 V c 0 t (ix2 p k)) (fun j k => iblk1 V c 1 t (ix2 k j))
        (fun j => iblk1 V c 3 t (ix2 (0 : Fin 1) j)) p
      = Spec.proj (fun r k => feat V c (ix2 r k)) (fun j k => gwHi V c (ix2 k j)) (fun j => bias V c (ix2 (0 : Fin 1) j))
          (⟨((((cfg1.win 4).blk t).view.emb (ix2 p q)) 0).val, idx2_lt0 _⟩ : Fin 16384) := by
    refine proj_congr _ _ _ _ _ _ _ _ (fun k => ?_) (fun j k => ?_) (fun j => ?_)
    · show feat V c (((cfg1.win 0).blk t).view.emb (ix2 p k)) = feat V c (ix2 _ k)
      refine congrArg (feat V c) (funext fun a => Fin.ext ?_)
      match a with
      | ⟨0, _⟩ =>
        show win1_0.index t (0 : Fin 2) * 512 + 1 * p.val = win1_4.index t (0 : Fin 2) * 512 + 1 * p.val
        rw [e00, e40]
      | ⟨1, _⟩ =>
        show win1_0.index t (1 : Fin 2) * 1024 + 1 * k.val = k.val
        rw [e01]; omega
    · show gwHi V c (((cfg1.win 1).blk t).view.emb (ix2 k j)) = gwHi V c (ix2 k j)
      refine congrArg (gwHi V c) (funext fun a => Fin.ext ?_)
      match a with
      | ⟨0, _⟩ =>
        show win1_1.index t (0 : Fin 2) * 1024 + 1 * k.val = k.val
        rw [e10]; omega
      | ⟨1, _⟩ =>
        show win1_1.index t (1 : Fin 2) * 512 + 1 * j.val = j.val
        rw [e11]; omega
    · show bias V c (((cfg1.win 3).blk t).view.emb (ix2 (0 : Fin 1) j)) = bias V c (ix2 (0 : Fin 1) j)
      refine congrArg (bias V c) (funext fun a => Fin.ext ?_)
      match a with
      | ⟨0, _⟩ =>
        show win1_3.index t (0 : Fin 2) * 1 + 1 * 0 = 0
        rw [e30]
      | ⟨1, _⟩ =>
        show win1_3.index t (1 : Fin 2) * 512 + 1 * j.val = j.val
        rw [e31]; omega
  exact congrArg₂ Spec.unitRow hrow hq.symm

/-- An index of the array is in point `t`'s block iff each coordinate is in the block's range on its axis. -/
theorem mem_blk (t : Fin cfg1.N) (i : S16384x512.Idx) :
    i ∈ ((cfg1.win 4).blk t).view.set ↔ ∀ a : Fin 2, win1_4.index t a * S512x512.size a ≤ (i a).val ∧ (i a).val < win1_4.index t a * S512x512.size a + S512x512.size a := by
  show i ∈ ((View.whole main_v7).slice (win1_4.rect t)).set ↔ _
  rw [View.set_slice_whole, Rect.mem_set_unit]
  exact Iff.rfl

/-- Every index of the array is in the block of the point its row falls to: row `r` in block `r / 512`. -/
theorem cover (i : S16384x512.Idx) :
    ∃ t : Fin cfg1.N, (cfg1.win 4).flush t = true ∧ i ∈ ((cfg1.win 4).blk t).view.set := by
  have hi0 : (i 0).val < 16384 := (i 0).isLt
  have hi1 : (i 1).val < 512 := (i 1).isLt
  have hN : grid1.N = 32 := N_1
  obtain ⟨t, ht⟩ : ∃ t : Fin cfg1.N, t.val = (i 0).val / 512 := ⟨⟨(i 0).val / 512, by show (i 0).val / 512 < grid1.N; omega⟩, rfl⟩
  obtain ⟨e00, e01, e10, e11, e20, e21, e30, e31, e40, e41⟩ := idx_facts t
  refine ⟨t, flush1_4 t, ?_⟩
  rw [mem_blk]
  intro a
  match a with
  | ⟨0, _⟩ =>
    show win1_4.index t (0 : Fin 2) * 512 ≤ (i 0).val ∧ (i 0).val < win1_4.index t (0 : Fin 2) * 512 + 512
    rw [e40, ht]; omega
  | ⟨1, _⟩ =>
    show win1_4.index t (1 : Fin 2) * 512 ≤ (i 1).val ∧ (i 1).val < win1_4.index t (1 : Fin 2) * 512 + 512
    rw [e41]; omega

/-- THE ARRAY after the region: `unitRows` of the arrays the region finds. -/
theorem final (c : Dev nD) (hfin : ∀ i, ∃ x : ℝ, feat V c i = (x : EReal)) (hlo : ∀ i, gwLo V c i = (0 : EReal)) :
    outArr V c = unitRows V c :=
  (dat1 (F := Ideal) V c).arrAt_eq_of_cover 4 (unitRows V c) (fun t _ => flushed_eq V c hfin hlo t) cover

/-- Entry `(r, j)` of the region's output is the unit row of `x · gwᵀ + gb`: with finite features the low half of
    `x` is `x - x = 0`, and with a zero low half of the weight the two correction products vanish. -/
theorem value (c : Dev nD) (hfin : ∀ i, ∃ x : ℝ, feat V c i = (x : EReal)) (hlo : ∀ i, gwLo V c i = (0 : EReal))
    (r : Fin 16384) (j : Fin 512) :
    outArr V c (ix2 r j)
      = Spec.unitRow (Spec.proj (fun r k => feat V c (ix2 r k)) (fun j k => gwHi V c (ix2 k j))
          (fun j => bias V c (ix2 (0 : Fin 1) j)) r) j := by
  rw [final V c hfin hlo]
  rfl

end Cert.KernelIdeal.Region1

end
-- ==== Proof.Region2Pay.lean ====
/-
  The fused kernel's three stored values, each read at an entry `(p, l)` of its 1024 × 128 block, at the ideal
  values: the reset stores zero; the update adds to the carried entry the sum over the run's 1024 example rows of
  the cube of the query row's inner product with the example row times the class entry; the epilogue divides the
  carried entry by the count of its column and clips.
-/
import proofs.«413376_j10969346474460_3_alg».proof.Proof.Gen.KernelIdeal.Skeleton
import proofs.«413376_j10969346474460_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region2Pay

open Cert.KernelIdeal Cert.KernelIdeal.Gen
open Idealize.ShloMosaic Idealize.ShloMosaic.ValueIdx

/-! ## The two matrix products at an entry: sums over the contracted coordinate -/

theorem lhsS_0 (i : S1024x1024.Idx) (q : dot_S1024x512_S512x1024_S1024x1024_1_0_0_1_n_n.contr.Idx) : (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhsS_1 (i : S1024x1024.Idx) (q : dot_S1024x512_S512x1024_S1024x1024_1_0_0_1_n_n.contr.Idx) : (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhsS_0 (i : S1024x1024.Idx) (q : dot_S1024x512_S512x1024_S1024x1024_1_0_0_1_n_n.contr.Idx) : (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhsS_1 (i : S1024x1024.Idx) (q : dot_S1024x512_S512x1024_S1024x1024_1_0_0_1_n_n.contr.Idx) : (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The similarity product: query block times transposed example block, into the zero accumulator. -/
theorem matmulS_apply (x : FVec Ideal S1024x512 .bf16) (y : FVec Ideal S512x1024 .bf16) (p : Fin 1024) (q : Fin 1024) :
    matmul dot_S1024x512_S512x1024_S1024x1024_1_0_0_1_n_n none x y (constant S1024x1024 .f32 0x00000000#32) (ix2 p q) = ∑ k : Fin 512, x (ix2 p k) * y (ix2 k q) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhsS_0 _ _
    | ⟨1, _⟩ => exact (lhsS_1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhsS_0 _ _).trans hk
    | ⟨1, _⟩ => exact rhsS_1 _ _)
  rw [el, er]

theorem lhsE_0 (i : S1024x128.Idx) (q : dot_S1024x1024_S1024x128_S1024x128_1_0_0_1_n_n.contr.Idx) : (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhsE_1 (i : S1024x128.Idx) (q : dot_S1024x1024_S1024x128_S1024x128_1_0_0_1_n_n.contr.Idx) : (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhsE_0 (i : S1024x128.Idx) (q : dot_S1024x1024_S1024x128_S1024x128_1_0_0_1_n_n.contr.Idx) : (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhsE_1 (i : S1024x128.Idx) (q : dot_S1024x1024_S1024x128_S1024x128_1_0_0_1_n_n.contr.Idx) : (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The echo product: activations times the class block, into the zero accumulator. -/
theorem matmulE_apply (x : FVec Ideal S1024x1024 .bf16) (y : FVec Ideal S1024x128 .bf16) (p : Fin 1024) (q : Fin 128) :
    matmul dot_S1024x1024_S1024x128_S1024x128_1_0_0_1_n_n none x y (constant S1024x128 .f32 0x00000000#32) (ix2 p q) = ∑ k : Fin 1024, x (ix2 p k) * y (ix2 k q) := by
  simp only [matmul]
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p q) ((contrEquiv1 dot_S1024x1024_S1024x128_S1024x128_1_0_0_1_n_n 1024 rfl rfl).symm k) = ix2 p k := funext fun a => Fin.ext (by
    match a with
    | ⟨0, _⟩ => exact lhsE_0 _ _
    | ⟨1, _⟩ => exact (lhsE_1 _ _).trans hk)
  have er : dot_S1024x1024_S1024x128_S1024x128_1_0_0_1_n_n.rhsIdx (ix2 p q) ((contrEquiv1 dot_S1024x1024_S1024x128_S1024x128_1_0_0_1_n_n 1024 rfl rfl).symm k) = ix2 k q := funext fun a => Fin.ext (by
    match a with
    | ⟨0, _⟩ => exact (rhsE_0 _ _).trans hk
    | ⟨1, _⟩ => exact rhsE_1 _ _)
  rw [el, er]

/-! ## The three stored values -/

/-- The reset stores zeros. -/
theorem pay1_apply (p : Fin 1024) (l : Fin 128) : (k2_pay1 (F := Ideal)) (ix2 p l) = (0 : EReal) := by
  unfold k2_pay1
  exact Ideal.ofBits_zero_f32

/-- The update: the carried entry plus, over the run's 1024 example rows, the cube of the inner product of query row
    `p` with the example row, times the class entry of column `l`. -/
theorem pay2_apply (x0 x1 : Vec Ideal S1024x512 .bf16) (x2 : Vec Ideal S1024x128 .bf16) (acc : Vec Ideal S1024x128 .f32)
    (p : Fin 1024) (l : Fin 128) :
    k2_pay2 x0 x1 x2 acc (ix2 p l)
      = acc (ix2 p l) + ∑ n : Fin 1024, Spec.cube (∑ j : Fin 512, x0 (ix2 p j) * x1 (ix2 n j)) * x2 (ix2 n l) := by
  unfold k2_pay2
  dsimp only
  simp only [shapeCast_self]
  rw [addf_apply, matmulE_apply]
  refine congrArg (acc (ix2 p l) + ·) (Finset.sum_congr rfl fun n _ => ?_)
  rw [truncf_apply, mulf_apply, mulf_apply, matmulS_apply]
  unfold Spec.cube
  refine congrArg (fun s => s * s * s * x2 (ix2 n l)) (Finset.sum_congr rfl fun j _ => ?_)
  rw [transpose_ix2_apply]

/-- The epilogue: the carried entry over the count of its column, clipped to `[0, 1]`. -/
theorem pay3_apply (acc : Vec Ideal S1024x128 .f32) (b : Vec Ideal S1x128 .f32) (p : Fin 1024) (l : Fin 128) :
    k2_pay3 acc b (ix2 p l) = Spec.clip01 (Ideal.div (acc (ix2 p l)) (b (ix2 (0 : Fin 1) l))) := by
  unfold k2_pay3
  simp only [shapeCast_self]
  rw [minimumf_apply, maximumf_apply, divf_apply, broadcastTo_1b_ab_apply]
  unfold Spec.clip01 Spec.one
  rw [broadcast_apply, broadcast_apply]
  show min (Ideal.ofBits .f32 0x3F800000#32) (max (Ideal.ofBits .f32 0x00000000#32) _) = _
  rw [Ideal.ofBits_zero_f32]

end Cert.KernelIdeal.Region2Pay

end
-- ==== Proof.Region2.lean ====
/-
  The fused region. Point `16·q + k` of the 8 × 16 grid holds query rows `1024·q …`, example rows `1024·k …`, the
  matching class rows, the counts row, and the output block of the query rows, which is carried from point to point:
  the first inner point (`k = 0`) stores zeros and adds its run's sum `∑ₙ s(p, n)³ · cls(n, l)`, each later point adds
  its own, and the last (`k = 15`) then divides by the count of column `l` and clips. By induction over the inner
  points the carried entry after point `k` is the sum of the runs `0 … k`; the sixteen runs of 1024 are the sum over
  all 16384 examples (`Spec.sum_runs`); the last inner points' blocks tile the output array.
-/
import proofs.«413376_j10969346474460_3_alg».proof.Proof.Gen.KernelIdeal.Frame
import proofs.«413376_j10969346474460_3_alg».proof.Proof.Spec
import proofs.«413376_j10969346474460_3_alg».proof.Proof.Region2Pay
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)
open Cert.KernelIdeal.Region2Pay

-- the buffers' contents as the region finds them
variable (V : (c : Dev nD) → (b : Ref sig .tc) → Buf (Elt Ideal) ((c : Thread nD τ).loc b))

/-- The unit query rows, the unit example rows, the padded classes and the padded class counts, as the region
    finds them. -/
abbrev qry (c : Dev nD) : Vec Ideal S8192x512 .bf16 := V c main_v6
abbrev exm (c : Dev nD) : Vec Ideal S16384x512 .bf16 := V c main_v7
abbrev cls (c : Dev nD) : Vec Ideal S16384x128 .bf16 := V c main_v9
abbrev cnt (c : Dev nD) : Vec Ideal S1x128 .f32 := V c main_v13

/-- What the region leaves in its output array, as an array of its literal type. -/
abbrev outArr (c : Dev nD) : Vec Ideal S8192x128 .f32 := (dat2 (F := Ideal) V c).arrAt 4 cfg2.N

/-! ## What each case leaves in the output block -/

theorem hz : (![0, 0] : Fin 2 → Nat) = fun _ => 0 := funext fun a => by fin_cases a <;> rfl

/-- An inner point that is neither first nor last adds its run's sum to the block it found. -/
theorem out_B (c : Dev nD) (i : grid2.Coords) (a2 : Memref sig .tc .vmem S1024x512 .bf16) (h2 : a2.IsWhole) (a3 : Memref sig .tc .vmem S1024x512 .bf16) (h3 : a3.IsWhole) (a4 : Memref sig .tc .vmem S1024x128 .bf16) (h4 : a4.IsWhole) (a5 : Memref sig .tc .vmem S1x128 .f32) (h5 : a5.IsWhole) (a6 : Memref sig .tc .vmem S1024x128 .f32) (h6 : a6.IsWhole) (hc0 : ¬cond2_0 i) (hc1 : ¬cond2_1 i)
    (x0 : Vec Ideal S1024x512 .bf16) (x1 : Vec Ideal S1024x512 .bf16) (x2 : Vec Ideal S1024x128 .bf16) (x3 : Vec Ideal S1x128 .f32) (xo : Vec Ideal S1024x128 .f32) :
    out2_B_4 (F := Ideal) c i a2 h2 a3 h3 a4 h4 a5 h5 a6 h6 hc0 hc1 x0 x1 x2 x3 xo = k2_pay2 x0 x1 x2 xo := by
  unfold out2_B_4
  rw [View.read_writes_eq_canon _ _ _ (cover2_B_4 c i a2 h2 a3 h3 a4 h4 a5 h5 a6 h6 hc0 hc1 x0 x1 x2 x3 xo)]
  unfold kernelRun2_B
  dsimp only
  sl_unfold_words
  rw [View.canon_unit_zero hz]
  simp only [View.readAt_eq_ld, h2.read_unread, h3.read_unread, h4.read_unread, h6.read_unread,
    View.ld_unit_zero (S := S1024x512) hz, View.ld_unit_zero (S := S1024x128) hz]

/-- The first inner point stores the zero block and adds its run's sum to it. -/
theorem out_A (c : Dev nD) (i : grid2.Coords) (a2 : Memref sig .tc .vmem S1024x512 .bf16) (h2 : a2.IsWhole) (a3 : Memref sig .tc .vmem S1024x512 .bf16) (h3 : a3.IsWhole) (a4 : Memref sig .tc .vmem S1024x128 .bf16) (h4 : a4.IsWhole) (a5 : Memref sig .tc .vmem S1x128 .f32) (h5 : a5.IsWhole) (a6 : Memref sig .tc .vmem S1024x128 .f32) (h6 : a6.IsWhole) (hc0 : cond2_0 i) (hc1 : ¬cond2_1 i)
    (x0 : Vec Ideal S1024x512 .bf16) (x1 : Vec Ideal S1024x512 .bf16) (x2 : Vec Ideal S1024x128 .bf16) (x3 : Vec Ideal S1x128 .f32) :
    out2_A_4 (F := Ideal) c i a2 h2 a3 h3 a4 h4 a5 h5 a6 h6 hc0 hc1 x0 x1 x2 x3
      = k2_pay2 x0 x1 x2 (k2_pay1 (F := Ideal)) := by
  unfold out2_A_4
  rw [View.read_writes_eq_canon _ _ _ (cover2_A_4 c i a2 h2 a3 h3 a4 h4 a5 h5 a6 h6 hc0 hc1 x0 x1 x2 x3)]
  unfold kernelRun2_A
  dsimp only
  sl_unfold_words
  rw [View.canon_cons_unit_zero (S := S1024x128) hz]
  simp only [View.readAt_eq_ld, h2.read_unread, h3.read_unread, h4.read_unread,
    View.readCov_unit_zero (S := S1024x128) _ hz,
    View.ld_unit_zero (S := S1024x512) hz, View.ld_unit_zero (S := S1024x128) hz]

/-- The last inner point adds its run's sum to the block it found, divides by the counts and clips. -/
theorem out_C (c : Dev nD) (i : grid2.Coords) (a2 : Memref sig .tc .vmem S1024x512 .bf16) (h2 : a2.IsWhole) (a3 : Memref sig .tc .vmem S1024x512 .bf16) (h3 : a3.IsWhole) (a4 : Memref sig .tc .vmem S1024x128 .bf16) (h4 : a4.IsWhole) (a5 : Memref sig .tc .vmem S1x128 .f32) (h5 : a5.IsWhole) (a6 : Memref sig .tc .vmem S1024x128 .f32) (h6 : a6.IsWhole) (hc0 : ¬cond2_0 i) (hc1 : cond2_1 i)
    (x0 : Vec Ideal S1024x512 .bf16) (x1 : Vec Ideal S1024x512 .bf16) (x2 : Vec Ideal S1024x128 .bf16) (x3 : Vec Ideal S1x128 .f32) (xo : Vec Ideal S1024x128 .f32) :
    out2_C_4 (F := Ideal) c i a2 h2 a3 h3 a4 h4 a5 h5 a6 h6 hc0 hc1 x0 x1 x2 x3 xo = k2_pay3 (k2_pay2 x0 x1 x2 xo) x3 := by
  unfold out2_C_4
  rw [View.read_writes_eq_canon _ _ _ (cover2_C_4 c i a2 h2 a3 h3 a4 h4 a5 h5 a6 h6 hc0 hc1 x0 x1 x2 x3 xo)]
  unfold kernelRun2_C
  dsimp only
  sl_unfold_words
  rw [View.canon_cons_unit_zero (S := S1024x128) hz]
  simp only [View.readAt_eq_ld, h2.read_unread, h3.read_unread, h4.read_unread, h5.read_unread, h6.read_unread,
    View.readCov_unit_zero (S := S1024x128) _ hz,
    View.ld_unit_zero (S := S1024x512) hz, View.ld_unit_zero (S := S1024x128) hz, View.ld_unit_zero (S := S1x128) hz]

/-! ## The blocks a point reads -/

/-- A point is below 128. -/
theorem lt128 (t : Fin cfg2.N) : t.val < 128 := lt_of_lt_of_eq t.isLt (show cfg2.N = 128 from N_2)

/-- The query block, the example block, the class block and the counts block at a point. -/
abbrev qblk (c : Dev nD) (t : Fin cfg2.N) : Vec Ideal S1024x512 .bf16 := iblk2 V c 0 t
abbrev eblk (c : Dev nD) (t : Fin cfg2.N) : Vec Ideal S1024x512 .bf16 := iblk2 V c 1 t
abbrev cblk (c : Dev nD) (t : Fin cfg2.N) : Vec Ideal S1024x128 .bf16 := iblk2 V c 2 t
abbrev nblk (c : Dev nD) (t : Fin cfg2.N) : Vec Ideal S1x128 .f32 := iblk2 V c 3 t

/-- Point `t = 16·q + k` reads query block `q`, example and class block `k`, the one counts block, and writes
    output block `q`. -/
theorem idx0 : ∀ t : Fin cfg2.N, win2_0.index t 0 = t.val / 16 ∧ win2_0.index t 1 = 0 :=
  (by decide +kernel : ∀ t : Fin grid2.N, win2_0.index t 0 = t.val / 16 ∧ win2_0.index t 1 = 0)
theorem idx1 : ∀ t : Fin cfg2.N, win2_1.index t 0 = t.val % 16 ∧ win2_1.index t 1 = 0 :=
  (by decide +kernel : ∀ t : Fin grid2.N, win2_1.index t 0 = t.val % 16 ∧ win2_1.index t 1 = 0)
theorem idx2 : ∀ t : Fin cfg2.N, win2_2.index t 0 = t.val % 16 ∧ win2_2.index t 1 = 0 :=
  (by decide +kernel : ∀ t : Fin grid2.N, win2_2.index t 0 = t.val % 16 ∧ win2_2.index t 1 = 0)
theorem idx3 : ∀ t : Fin cfg2.N, win2_3.index t 0 = 0 ∧ win2_3.index t 1 = 0 :=
  (by decide +kernel : ∀ t : Fin grid2.N, win2_3.index t 0 = 0 ∧ win2_3.index t 1 = 0)
theorem idx4 : ∀ t : Fin cfg2.N, win2_4.index t 0 = t.val / 16 ∧ win2_4.index t 1 = 0 :=
  (by decide +kernel : ∀ t : Fin grid2.N, win2_4.index t 0 = t.val / 16 ∧ win2_4.index t 1 = 0)

/-- Row `p` of the query (output) block of point `t`, in the array. -/
abbrev qrow (t : Fin cfg2.N) (p : Fin 1024) : Fin 8192 :=
  ⟨1024 * (t.val / 16) + p.val, by have := lt128 t; have := p.isLt; omega⟩
/-- Row `n` of example run `k`, in the array. -/
abbrev erow (k : ℕ) (hk : k < 16) (n : Fin 1024) : Fin 16384 :=
  ⟨1024 * k + n.val, by have := n.isLt; omega⟩

theorem qblk_apply (c : Dev nD) (t : Fin cfg2.N) (p : Fin 1024) (j : Fin 512) :
    qblk V c t (ix2 p j) = qry V c (ix2 (qrow t p) j) := by
  unfold qblk iblk2
  rw [View.read_apply]
  show V c main_v6 _ = V c main_v6 _
  congr 1
  funext a
  apply Fin.ext
  match a with
  | ⟨0, _⟩ => show win2_0.index t 0 * 1024 + 1 * p.val = 1024 * (t.val / 16) + p.val; rw [(idx0 t).1]; omega
  | ⟨1, _⟩ => show win2_0.index t 1 * 512 + 1 * j.val = j.val; rw [(idx0 t).2]; omega

theorem eblk_apply (c : Dev nD) (t : Fin cfg2.N) (n : Fin 1024) (j : Fin 512) :
    eblk V c t (ix2 n j) = exm V c (ix2 (erow (t.val % 16) (Nat.mod_lt _ (by decide)) n) j) := by
  unfold eblk iblk2
  rw [View.read_apply]
  show V c main_v7 _ = V c main_v7 _
  congr 1
  funext a
  apply Fin.ext
  match a with
  | ⟨0, _⟩ => show win2_1.index t 0 * 1024 + 1 * n.val = 1024 * (t.val % 16) + n.val; rw [(idx1 t).1]; omega
  | ⟨1, _⟩ => show win2_1.index t 1 * 512 + 1 * j.val = j.val; rw [(idx1 t).2]; omega

theorem cblk_apply (c : Dev nD) (t : Fin cfg2.N) (n : Fin 1024) (l : Fin 128) :
    cblk V c t (ix2 n l) = cls V c (ix2 (erow (t.val % 16) (Nat.mod_lt _ (by decide)) n) l) := by
  unfold cblk iblk2
  rw [View.read_apply]
  show V c main_v9 _ = V c main_v9 _
  congr 1
  funext a
  apply Fin.ext
  match a with
  | ⟨0, _⟩ => show win2_2.index t 0 * 1024 + 1 * n.val = 1024 * (t.val % 16) + n.val; rw [(idx2 t).1]; omega
  | ⟨1, _⟩ => show win2_2.index t 1 * 128 + 1 * l.val = l.val; rw [(idx2 t).2]; omega

theorem nblk_apply (c : Dev nD) (t : Fin cfg2.N) (l : Fin 128) :
    nblk V c t (ix2 (0 : Fin 1) l) = cnt V c (ix2 (0 : Fin 1) l) := by
  unfold nblk iblk2
  rw [View.read_apply]
  show V c main_v13 _ = V c main_v13 _
  congr 1
  funext a
  apply Fin.ext
  match a with
  | ⟨0, _⟩ => show win2_3.index t 0 * 1 + 1 * 0 = 0; rw [(idx3 t).1]
  | ⟨1, _⟩ => show win2_3.index t 1 * 128 + 1 * l.val = l.val; rw [(idx3 t).2]; omega

/-! ## The running sum -/

/-- The weighted cube of query row `i`'s inner product with example row `n`, at class `l`. -/
abbrev term (c : Dev nD) (i : Fin 8192) (l : Fin 128) (n : Fin 16384) : EReal :=
  Spec.cube (Spec.dot (fun j => qry V c (ix2 i j)) (fun j => exm V c (ix2 n j))) * cls V c (ix2 n l)

/-- The sum of run `k`: the 1024 example rows from `1024·k` on (zero past the sixteenth run). -/
def run (c : Dev nD) (i : Fin 8192) (l : Fin 128) (k : ℕ) : EReal :=
  if hk : k < 16 then ∑ n : Fin 1024, term V c i l (erow k hk n) else 0

/-- What a point adds: the sum of its run, at its query rows. -/
theorem run_eq (c : Dev nD) (t : Fin cfg2.N) (p : Fin 1024) (l : Fin 128) :
    (∑ n : Fin 1024, Spec.cube (∑ j : Fin 512, qblk V c t (ix2 p j) * eblk V c t (ix2 n j)) * cblk V c t (ix2 n l))
      = run V c (qrow t p) l (t.val % 16) := by
  unfold run
  rw [dif_pos (Nat.mod_lt _ (by decide))]
  refine Finset.sum_congr rfl fun n _ => ?_
  rw [cblk_apply]
  refine congrArg (fun s => Spec.cube s * _) ?_
  refine Finset.sum_congr rfl fun j _ => ?_
  rw [qblk_apply, eblk_apply]

/-- After inner point `k < 15` the output block holds the sum of the runs `0 … k`. -/
theorem partial_eq (c : Dev nD) : ∀ (n : ℕ) (h : n < cfg2.N), ¬n % 16 = 15 → ∀ (p : Fin 1024) (l : Fin 128),
    outsAt2 V c n h (ix2 p l) = ∑ k ∈ Finset.range (n % 16 + 1), run V c (qrow ⟨n, h⟩ p) l k
  | 0, h, h1, p, l => by
    refine (congrFun (outsAt2_A V c ⟨0, h⟩ rfl h1) (ix2 p l)).trans ?_
    refine (congrFun (out_A c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) _ _ (qblk V c ⟨0, h⟩) (eblk V c ⟨0, h⟩) (cblk V c ⟨0, h⟩) (nblk V c ⟨0, h⟩)) (ix2 p l)).trans ?_
    refine (pay2_apply _ _ _ _ p l).trans ?_
    rw [pay1_apply, zero_add, run_eq]
    show _ = ∑ k ∈ Finset.range 1, _
    rw [Finset.sum_range_one]
    rfl
  | n + 1, h, h1, p, l => by
    by_cases h0 : (n + 1) % 16 = 0
    · refine (congrFun (outsAt2_A V c ⟨n + 1, h⟩ h0 h1) (ix2 p l)).trans ?_
      refine (congrFun (out_A c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) _ _ (qblk V c ⟨n + 1, h⟩) (eblk V c ⟨n + 1, h⟩) (cblk V c ⟨n + 1, h⟩) (nblk V c ⟨n + 1, h⟩)) (ix2 p l)).trans ?_
      refine (pay2_apply _ _ _ _ p l).trans ?_
      rw [pay1_apply, zero_add, run_eq]
      show run V c _ l ((n + 1) % 16) = _
      rw [h0, Finset.sum_range_one]
    · refine (congrFun (outsAt2_B V c ⟨n + 1, h⟩ h0 h1) (ix2 p l)).trans ?_
      refine (congrFun (out_B c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) _ _ (qblk V c ⟨n + 1, h⟩) (eblk V c ⟨n + 1, h⟩) (cblk V c ⟨n + 1, h⟩) (nblk V c ⟨n + 1, h⟩) _) (ix2 p l)).trans ?_
      refine (pay2_apply _ _ _ _ p l).trans ?_
      rw [run_eq]
      show outsAt2 V c n _ (ix2 p l) + run V c _ l ((n + 1) % 16) = _
      have hm : (n + 1) % 16 = n % 16 + 1 := by omega
      rw [partial_eq c n (Nat.lt_of_succ_lt h) (by omega) p l, hm, Finset.sum_range_succ _ (n % 16 + 1)]
      have hq : qrow ⟨n, Nat.lt_of_succ_lt h⟩ p = qrow ⟨n + 1, h⟩ p := Fin.ext (by show 1024 * (n / 16) + p.val = 1024 * ((n + 1) / 16) + p.val; omega)
      rw [hq]

/-! ## The last inner point, and the array -/

/-- The sixteen runs are the sum over all example rows. -/
theorem sum_run (c : Dev nD) (i : Fin 8192) (l : Fin 128) :
    ∑ k ∈ Finset.range 16, run V c i l k
      = Spec.echo (fun n => Spec.cube (Spec.dot (fun j => qry V c (ix2 i j)) (fun j => exm V c (ix2 n j))))
          (fun n => cls V c (ix2 n l)) := by
  rw [← Fin.sum_univ_eq_sum_range (fun k => run V c i l k) 16]
  refine Eq.trans (Finset.sum_congr rfl fun k _ => ?_) (Spec.sum_runs (term V c i l))
  unfold run
  rw [dif_pos k.isLt]

/-- After the last inner point the output block holds the clipped quotient of the whole sum by the count. -/
theorem last_eq (c : Dev nD) (t : Fin cfg2.N) (h1 : t.val % 16 = 15) (p : Fin 1024) (l : Fin 128) :
    outsAt2 V c t.val t.isLt (ix2 p l)
      = Spec.clip01 (Ideal.div
          (Spec.echo (fun n => Spec.cube (Spec.dot (fun j => qry V c (ix2 (qrow t p) j)) (fun j => exm V c (ix2 n j))))
            (fun n => cls V c (ix2 n l)))
          (cnt V c (ix2 (0 : Fin 1) l))) := by
  have h0 : ¬t.val % 16 = 0 := by omega
  have hlt := lt128 t
  refine (congrFun (outsAt2_C V c t h0 h1) (ix2 p l)).trans ?_
  refine (congrFun (out_C c (grid2.coords t) (ms2_0 t) (hs2_0 t) (ms2_1 t) (hs2_1 t) (ms2_2 t) (hs2_2 t) (ms2_3 t) (hs2_3 t) (ms2_4 t) (hs2_4 t) _ _ (qblk V c t) (eblk V c t) (cblk V c t) (nblk V c t) _) (ix2 p l)).trans ?_
  refine (pay3_apply _ _ p l).trans ?_
  rw [nblk_apply, pay2_apply, run_eq, partial_eq V c (t.val - 1) _ (by omega) p l, ← sum_run]
  have hm : (t.val - 1) % 16 + 1 = 15 := by omega
  have hq : qrow ⟨t.val - 1, Nat.lt_of_le_of_lt (Nat.sub_le _ _) t.isLt⟩ p = qrow t p :=
    Fin.ext (by show 1024 * ((t.val - 1) / 16) + p.val = 1024 * (t.val / 16) + p.val; omega)
  rw [hm, hq, h1, ← Finset.sum_range_succ _ 15]

/-- The array the region leaves: entry `(i, l)` is the clipped quotient of query row `i`'s whole sum at class `l`. -/
def res (c : Dev nD) : Vec Ideal S8192x128 .f32 := fun y =>
  Spec.clip01 (Ideal.div
    (Spec.echo (fun n => Spec.cube (Spec.dot (fun j => qry V c (ix2 (y 0 : Fin 8192) j)) (fun j => exm V c (ix2 n j))))
      (fun n => cls V c (ix2 n (y 1 : Fin 128))))
    (cnt V c (ix2 (0 : Fin 1) (y 1 : Fin 128))))

/-- The last inner point of each query block writes back that block of it. -/
theorem flushed_eq (c : Dev nD) (t : Fin cfg2.N) (hf : (cfg2.win 4).flush t = true) :
    (dat2 V c).flushed 4 t = ((cfg2.win 4).blk t).view.read (Elt Ideal) (res V c) := by
  have h15 := (flush2_4 t).mp hf
  show (cfg2.win 4).cut (grid2.coords t) ((dat2 V c).after 4 t) = _
  rw [after2_4]
  funext y
  rw [View.read_apply]
  have hy0 : (y 0).val < 1024 := (y 0).isLt
  have hy1 : (y 1).val < 128 := (y 1).isLt
  have e1 : (cfg2.win 4).xinj (grid2.coords t) y = ix2 (⟨(y 0).val, hy0⟩ : Fin 1024) (⟨(y 1).val, hy1⟩ : Fin 128) :=
    funext fun a => match a with | ⟨0, _⟩ => rfl | ⟨1, _⟩ => rfl
  have e2 : ((cfg2.win 4).blk t).view.emb y = ix2 (qrow t ⟨(y 0).val, hy0⟩) (⟨(y 1).val, hy1⟩ : Fin 128) :=
    funext fun a => Fin.ext (by
      match a with
      | ⟨0, _⟩ => show win2_4.index t 0 * 1024 + 1 * (y 0).val = 1024 * (t.val / 16) + (y 0).val; rw [(idx4 t).1]; omega
      | ⟨1, _⟩ => show win2_4.index t 1 * 128 + 1 * (y 1).val = (y 1).val; rw [(idx4 t).2]; omega)
  show outsAt2 V c t.val t.isLt ((cfg2.win 4).xinj (grid2.coords t) y) = res V c (((cfg2.win 4).blk t).view.emb y)
  rw [e1, e2]
  exact last_eq V c t h15 _ _

/-- The output blocks are whole at every point. -/
theorem xs4 : ∀ t : Fin cfg2.N, win2_4.xsize (grid2.coords t) 0 = 1024 ∧ win2_4.xsize (grid2.coords t) 1 = 128 :=
  (by decide +kernel : ∀ t : Fin grid2.N, win2_4.xsize (grid2.coords t) 0 = 1024 ∧ win2_4.xsize (grid2.coords t) 1 = 128)

/-- Row `i` of the array lies in the block written back at the last inner point of query block `i / 1024`; so the
    region leaves that array. -/
theorem final (c : Dev nD) : (dat2 V c).arrAt 4 cfg2.N = res V c :=
  (dat2 V c).arrAt_eq_of_cover 4 (res V c) (flushed_eq V c) fun i => by
    have hi0 : (i 0).val < 8192 := (i 0).isLt
    have hi1 : (i 1).val < 128 := (i 1).isLt
    have hN : cfg2.N = 128 := N_2
    have ht : 16 * ((i 0).val / 1024) + 15 < cfg2.N := by rw [hN]; omega
    refine ⟨⟨16 * ((i 0).val / 1024) + 15, ht⟩,
      (flush2_4 _).mpr (by show (16 * ((i 0).val / 1024) + 15) % 16 = 15; omega), ?_⟩
    show i ∈ ((View.whole main_v14).slice (win2_4.rect ⟨16 * ((i 0).val / 1024) + 15, ht⟩)).set
    rw [View.set_slice_whole, Rect.mem_set_unit]
    intro a
    match a with
    | ⟨0, _⟩ =>
      show win2_4.index _ 0 * 1024 ≤ (i 0 : ℕ) ∧ (i 0 : ℕ) < win2_4.index _ 0 * 1024 + win2_4.xsize (grid2.coords _) 0
      rw [(idx4 _).1, (xs4 _).1]
      show (16 * ((i 0).val / 1024) + 15) / 16 * 1024 ≤ (i 0).val ∧ (i 0).val < (16 * ((i 0).val / 1024) + 15) / 16 * 1024 + 1024
      omega
    | ⟨1, _⟩ =>
      show win2_4.index _ 1 * 128 ≤ (i 1 : ℕ) ∧ (i 1 : ℕ) < win2_4.index _ 1 * 128 + win2_4.xsize (grid2.coords _) 1
      rw [(idx4 _).2, (xs4 _).2]
      omega

/-- Entry `(i, l)` of the region's output: the cubes of query row `i`'s inner products with all 16384 example rows,
    weighted by column `l` of the classes and summed — the kernel adds them up in 16 runs of 1024 from zero —, over
    the count of column `l`, clipped to `[0, 1]`. -/
theorem value (c : Dev nD) (i : Fin 8192) (l : Fin 128) :
    outArr V c (ix2 i l)
      = Spec.clip01 (Ideal.div
          (Spec.echo (fun n => Spec.cube (Spec.dot (fun j => qry V c (ix2 i j)) (fun j => exm V c (ix2 n j))))
            (fun n => cls V c (ix2 n l)))
          (cnt V c (ix2 (0 : Fin 1) l))) := by
  exact congrFun (final V c) (ix2 i l)

end Cert.KernelIdeal.Region2

end
-- ==== Proof.KValue.lean ====
/-
  The kernel's pieces joined: the result buffer's entry `(i, l)` is the fused region's output there, a function of
  what that region finds; what it finds are the projection regions' outputs, the padded classes and counts; and the
  projection regions' outputs are unit rows of the projected argument rows.
-/
import proofs.«413376_j10969346474460_3_alg».proof.Proof.Gen.KernelIdeal.Frame
import proofs.«413376_j10969346474460_3_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«413376_j10969346474460_3_alg».proof.Proof.KArgs
import proofs.«413376_j10969346474460_3_alg».proof.Proof.KHostA
import proofs.«413376_j10969346474460_3_alg».proof.Proof.KHostB
import proofs.«413376_j10969346474460_3_alg».proof.Proof.Region0
import proofs.«413376_j10969346474460_3_alg».proof.Proof.Region1
import proofs.«413376_j10969346474460_3_alg».proof.Proof.Region2

noncomputable section

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)

open Cert.KernelIdeal.HostV

variable (m : (ℓ : Loc nD τ sig) → Buf (Elt Ideal) ℓ) (ρ : Dev nD → PrngReg)

/-! ## The kernel's result, entry by entry, as the specification of the launched arguments

The fused region's output at `(i, l)` is a function of what it finds; what it finds are the two projection regions'
outputs, the padded classes and the padded counts; the projection regions' outputs are unit rows of what THEY find,
which the host operations before them make of the arguments. Each step is one of the modules below this one. -/

/-- The fused region's query rows are the unit rows of the projected query features. -/
theorem qry_eq (c : Dev nD) (h0 : ∀ i, ∃ x : ℝ, arg0 m c i = (x : EReal)) (h2 : ∀ i, ∃ x : ℝ, arg2 m c i = (x : EReal))
    (i : Fin 8192) (j : Fin 512) :
    Region2.qry (V10 m ρ) c (ix2 i j)
      = Spec.unitRow (Spec.proj (fun r k => arg0 m c (ix2 r k)) (fun j k => arg2 m c (ix2 j k))
          (fun j => arg3 m c (ix1 j)) i) j := by
  refine (V10_qry m ρ c (ix2 i j)).trans ?_
  refine (Region0.value (V1 m ρ) c
    (fun x => by obtain ⟨r, hr⟩ := h0 x; exact ⟨r, (V1_feat m ρ c x).trans hr⟩)
    (fun x => V1_gwLo m ρ c h2 x) i j).trans ?_
  have e1 : (fun (r : Fin 8192) (k : Fin 1024) => Region0.feat (V1 m ρ) c (ix2 r k)) = fun r k => arg0 m c (ix2 r k) :=
    funext fun r => funext fun k => V1_feat m ρ c _
  have e2 : (fun (j : Fin 512) (k : Fin 1024) => Region0.gwHi (V1 m ρ) c (ix2 k j)) = fun j k => arg2 m c (ix2 j k) :=
    funext fun j => funext fun k => V1_gwHi m ρ c k j
  have e3 : (fun j : Fin 512 => Region0.bias (V1 m ρ) c (ix2 (0 : Fin 1) j)) = fun j => arg3 m c (ix1 j) :=
    funext fun j => V1_bias m ρ c j
  rw [e1, e2, e3]

/-- Its example rows are the unit rows of the projected example features. -/
theorem exm_eq (c : Dev nD) (h1 : ∀ i, ∃ x : ℝ, arg1 m c i = (x : EReal)) (h2 : ∀ i, ∃ x : ℝ, arg2 m c i = (x : EReal))
    (n : Fin 16384) (j : Fin 512) :
    Region2.exm (V10 m ρ) c (ix2 n j)
      = Spec.unitRow (Spec.proj (fun r k => arg1 m c (ix2 r k)) (fun j k => arg2 m c (ix2 j k))
          (fun j => arg3 m c (ix1 j)) n) j := by
  refine (V10_exm m ρ c (ix2 n j)).trans ?_
  refine (Region1.value (V2 m ρ) c
    (fun x => by obtain ⟨r, hr⟩ := h1 x; exact ⟨r, (V2_feat m ρ c x).trans hr⟩)
    (fun x => (V2_gwLo m ρ c x).trans (V1_gwLo m ρ c h2 x)) n j).trans ?_
  have e1 : (fun (r : Fin 16384) (k : Fin 1024) => Region1.feat (V2 m ρ) c (ix2 r k)) = fun r k => arg1 m c (ix2 r k) :=
    funext fun r => funext fun k => V2_feat m ρ c _
  have e2 : (fun (j : Fin 512) (k : Fin 1024) => Region1.gwHi (V2 m ρ) c (ix2 k j)) = fun j k => arg2 m c (ix2 j k) :=
    funext fun j => funext fun k => (V2_gwHi m ρ c _).trans (V1_gwHi m ρ c k j)
  have e3 : (fun j : Fin 512 => Region1.bias (V2 m ρ) c (ix2 (0 : Fin 1) j)) = fun j => arg3 m c (ix1 j) :=
    funext fun j => (V2_bias m ρ c _).trans (V1_bias m ρ c j)
  rw [e1, e2, e3]

/-- THE RESULT: entry `(i, l)` of the buffer the kernel returns is the specification of the launched arguments,
    when the two feature arrays and the weight hold real numbers. -/
theorem result_apply (c : Dev nD) (h0 : ∀ i, ∃ x : ℝ, arg0 m c i = (x : EReal)) (h1 : ∀ i, ∃ x : ℝ, arg1 m c i = (x : EReal))
    (h2 : ∀ i, ∃ x : ℝ, arg2 m c i = (x : EReal)) (i : Fin 8192) (l : Fin 28) :
    (W12 m ρ c (Proc.devRef .tc main_v15) : Vec Ideal S8192x28 .f32) (ix2 i l)
      = Spec.result (fun r k => arg0 m c (ix2 r k)) (fun n k => arg1 m c (ix2 n k)) (fun j k => arg2 m c (ix2 j k))
          (fun j => arg3 m c (ix1 j)) (fun n l => arg4 m c (ix2 n l)) i l := by
  refine (W12_out m ρ c i l).trans ?_
  refine (Region2.value (V10 m ρ) c i (Fin.castLE (by decide) l)).trans ?_
  unfold Spec.result
  have eq : (fun j : Fin 512 => Region2.qry (V10 m ρ) c (ix2 i j))
      = Spec.unitRow (Spec.proj (fun r k => arg0 m c (ix2 r k)) (fun j k => arg2 m c (ix2 j k)) (fun j => arg3 m c (ix1 j)) i) :=
    funext fun j => qry_eq m ρ c h0 h2 i j
  have ee : ∀ n : Fin 16384, (fun j : Fin 512 => Region2.exm (V10 m ρ) c (ix2 n j))
      = Spec.unitRow (Spec.proj (fun r k => arg1 m c (ix2 r k)) (fun j k => arg2 m c (ix2 j k)) (fun j => arg3 m c (ix1 j)) n) :=
    fun n => funext fun j => exm_eq m ρ c h1 h2 n j
  have ec : (fun n : Fin 16384 => Region2.cls (V10 m ρ) c (ix2 n (Fin.castLE (by decide) l : Fin 128))) = fun n => arg4 m c (ix2 n l) :=
    funext fun n => V10_cls m ρ c n l
  have en : Region2.cnt (V10 m ρ) c (ix2 (0 : Fin 1) (Fin.castLE (by decide) l : Fin 128)) = Spec.count (fun n => arg4 m c (ix2 n l)) :=
    V10_cnt m ρ c l
  rw [eq, ec, en]
  simp only [ee]

end Cert.KernelIdeal.KValue

end
-- ==== Proof.RefValue.lean ====
/-
  The reference is the specification, stage by stage: each of its three products read at an entry is the sum over
  the contracted coordinate, each row sum starts from the zero literal, the clamp and clip literals are the
  specification's own, and `|s|^3 · sign s` is the cube (`Spec.abs_pow_three_mul_sign`).
-/
import proofs.«413376_j10969346474460_3_alg».proof.Proof.Gen.ReferenceIdeal.Read
import proofs.«413376_j10969346474460_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read
open Idealize.ShloMosaic Idealize.ShloMosaic.TcCoe Idealize.SL.Sem Idealize.ShloMosaic.ValueIdx

/-- The projection of a query row: the product with the transposed weights is the sum over the contracted
    coordinate, and the bias is broadcast along the rows. -/
theorem proj_query (x0 : Vec Ideal S8192x1024 .f32) (x2 : Vec Ideal S512x1024 .f32) (x3 : Vec Ideal S512 .f32)
    (r : Fin 8192) (j : Fin 512) :
    val_main_v4 (F := Ideal) x0 x2 x3 (ix2 r j)
      = Spec.proj (fun r k => x0 (ix2 r k)) (fun j k => x2 (ix2 j k)) (fun j => x3 (ix1 j)) r j := by
  rw [val_main_v4_apply, val_main_v1_apply, val_main_v3_apply, val_main_v2_apply]
  simp only [val_main_v0_apply, Ideal.addf_def]
  unfold Spec.proj
  have hl : ∀ k : Fin 1024, lidx_main_v1 (ix2 r j) k = ix2 r k := fun k =>
    funext fun a => Fin.ext (by match a with | ⟨0, _⟩ => rfl | ⟨1, _⟩ => rfl)
  have hr : ∀ k : Fin 1024, idx_main_v0 (ridx_main_v1 (ix2 r j) k) = ix2 j k := fun k =>
    funext fun a => Fin.ext (by match a with | ⟨0, _⟩ => rfl | ⟨1, _⟩ => rfl)
  have hb : idx_main_v2 (idx_main_v3 (ix2 r j)) = ix1 j :=
    funext fun a => Fin.ext (by match a with | ⟨0, _⟩ => rfl)
  rw [hb]
  refine congrArg (· + x3 (ix1 j)) (Finset.sum_congr rfl fun k _ => ?_)
  rw [hl, hr]

/-- The projection of an example row. -/
theorem proj_example (x1 : Vec Ideal S16384x1024 .f32) (x2 : Vec Ideal S512x1024 .f32) (x3 : Vec Ideal S512 .f32)
    (n : Fin 16384) (j : Fin 512) :
    val_main_v9 (F := Ideal) x1 x2 x3 (ix2 n j)
      = Spec.proj (fun n k => x1 (ix2 n k)) (fun j k => x2 (ix2 j k)) (fun j => x3 (ix1 j)) n j := by
  rw [val_main_v9_apply, val_main_v6_apply, val_main_v8_apply, val_main_v7_apply]
  simp only [val_main_v5_apply, Ideal.addf_def]
  unfold Spec.proj
  have hl : ∀ k : Fin 1024, lidx_main_v6 (ix2 n j) k = ix2 n k := fun k =>
    funext fun a => Fin.ext (by match a with | ⟨0, _⟩ => rfl | ⟨1, _⟩ => rfl)
  have hr : ∀ k : Fin 1024, idx_main_v5 (ridx_main_v6 (ix2 n j) k) = ix2 j k := fun k =>
    funext fun a => Fin.ext (by match a with | ⟨0, _⟩ => rfl | ⟨1, _⟩ => rfl)
  have hb : idx_main_v7 (idx_main_v8 (ix2 n j)) = ix1 j :=
    funext fun a => Fin.ext (by match a with | ⟨0, _⟩ => rfl)
  rw [hb]
  refine congrArg (· + x3 (ix1 j)) (Finset.sum_congr rfl fun k _ => ?_)
  rw [hl, hr]

/-- A query row over its clamped norm: the row sum of squares starts from the zero literal, and the clamp is the
    literal `ε`. -/
theorem unit_query (x0 : Vec Ideal S8192x1024 .f32) (x2 : Vec Ideal S512x1024 .f32) (x3 : Vec Ideal S512 .f32)
    (r : Fin 8192) (j : Fin 512) :
    val_main_v17 (F := Ideal) x0 x2 x3 (ix2 r j)
      = Spec.unitRow (Spec.proj (fun r k => x0 (ix2 r k)) (fun j k => x2 (ix2 j k)) (fun j => x3 (ix1 j)) r) j := by
  rw [val_main_v17_apply, val_main_v16_apply, val_main_v15_apply, val_main_v13_apply, val_main_v12_apply,
    val_main_v11_apply, val_main_v14_apply, val_main_cst_0_apply, val_main_cst_apply]
  have hk : ∀ k : Fin 512, idx_main_v11 (idx_main_v12 (idx_main_v16 (ix2 r j))) k = ix2 r k := fun k =>
    funext fun a => Fin.ext (by match a with | ⟨0, _⟩ => rfl | ⟨1, _⟩ => rfl)
  simp only [val_main_v10_apply, hk, proj_query, Ideal.hostDivf_def, Ideal.maximumf_def, Ideal.hostUnary_sqrt_def,
    Ideal.mulf_def, Ideal.ofBits_def, Ideal.ofBits_zero_f32, zero_add]
  rfl

/-- An example row over its clamped norm. -/
theorem unit_example (x1 : Vec Ideal S16384x1024 .f32) (x2 : Vec Ideal S512x1024 .f32) (x3 : Vec Ideal S512 .f32)
    (n : Fin 16384) (j : Fin 512) :
    val_main_v25 (F := Ideal) x1 x2 x3 (ix2 n j)
      = Spec.unitRow (Spec.proj (fun n k => x1 (ix2 n k)) (fun j k => x2 (ix2 j k)) (fun j => x3 (ix1 j)) n) j := by
  rw [val_main_v25_apply, val_main_v24_apply, val_main_v23_apply, val_main_v21_apply, val_main_v20_apply,
    val_main_v19_apply, val_main_v22_apply, val_main_cst_2_apply, val_main_cst_1_apply]
  have hk : ∀ k : Fin 512, idx_main_v19 (idx_main_v20 (idx_main_v24 (ix2 n j))) k = ix2 n k := fun k =>
    funext fun a => Fin.ext (by match a with | ⟨0, _⟩ => rfl | ⟨1, _⟩ => rfl)
  simp only [val_main_v18_apply, hk, proj_example, Ideal.hostDivf_def, Ideal.maximumf_def, Ideal.hostUnary_sqrt_def,
    Ideal.mulf_def, Ideal.ofBits_def, Ideal.ofBits_zero_f32, zero_add]
  rfl

/-- The similarity of query row `i` and example row `n`: the product with the transposed example rows is the
    inner product of the two unit rows. -/
theorem similarity (x0 : Vec Ideal S8192x1024 .f32) (x1 : Vec Ideal S16384x1024 .f32) (x2 : Vec Ideal S512x1024 .f32)
    (x3 : Vec Ideal S512 .f32) (i : Fin 8192) (n : Fin 16384) :
    val_main_v27 (F := Ideal) x0 x1 x2 x3 (ix2 i n)
      = Spec.dot
          (Spec.unitRow (Spec.proj (fun r k => x0 (ix2 r k)) (fun j k => x2 (ix2 j k)) (fun j => x3 (ix1 j)) i))
          (Spec.unitRow (Spec.proj (fun n k => x1 (ix2 n k)) (fun j k => x2 (ix2 j k)) (fun j => x3 (ix1 j)) n)) := by
  rw [val_main_v27_apply]
  have hl : ∀ k : Fin 512, lidx_main_v27 (ix2 i n) k = ix2 i k := fun k =>
    funext fun a => Fin.ext (by match a with | ⟨0, _⟩ => rfl | ⟨1, _⟩ => rfl)
  have hr : ∀ k : Fin 512, idx_main_v26 (ridx_main_v27 (ix2 i n) k) = ix2 n k := fun k =>
    funext fun a => Fin.ext (by match a with | ⟨0, _⟩ => rfl | ⟨1, _⟩ => rfl)
  unfold Spec.dot
  refine Finset.sum_congr rfl fun k _ => ?_
  rw [val_main_v26_apply, hl, hr, unit_query, unit_example]

/-- The activation: `|s|^3 · sign s` is the cube of the similarity. -/
theorem activation (x0 : Vec Ideal S8192x1024 .f32) (x1 : Vec Ideal S16384x1024 .f32) (x2 : Vec Ideal S512x1024 .f32)
    (x3 : Vec Ideal S512 .f32) (i : Fin 8192) (n : Fin 16384) :
    val_main_v32 (F := Ideal) x0 x1 x2 x3 (ix2 i n)
      = Spec.cube (Spec.dot
          (Spec.unitRow (Spec.proj (fun r k => x0 (ix2 r k)) (fun j k => x2 (ix2 j k)) (fun j => x3 (ix1 j)) i))
          (Spec.unitRow (Spec.proj (fun n k => x1 (ix2 n k)) (fun j k => x2 (ix2 j k)) (fun j => x3 (ix1 j)) n))) := by
  rw [val_main_v32_apply, val_main_v30_apply, val_main_v31_apply, val_main_v28_apply, val_main_v29_apply,
    val_main_cst_3_apply, similarity]
  simp only [Ideal.mulf_def, Ideal.hostPowf_def, Ideal.hostAbsf_def, Ideal.absf_def, Ideal.hostUnary_sign_def,
    Ideal.ofBits_def]
  exact Spec.abs_pow_three_mul_sign _

/-- The echo at class `c`: the product with the class matrix is the sum over the examples. -/
theorem echo_apply (x0 : Vec Ideal S8192x1024 .f32) (x1 : Vec Ideal S16384x1024 .f32) (x2 : Vec Ideal S512x1024 .f32)
    (x3 : Vec Ideal S512 .f32) (x4 : Vec Ideal S16384x28 .f32) (i : Fin 8192) (c : Fin 28) :
    val_main_v33 (F := Ideal) x0 x1 x2 x3 x4 (ix2 i c)
      = Spec.echo (fun n => Spec.cube (Spec.dot
          (Spec.unitRow (Spec.proj (fun r k => x0 (ix2 r k)) (fun j k => x2 (ix2 j k)) (fun j => x3 (ix1 j)) i))
          (Spec.unitRow (Spec.proj (fun n k => x1 (ix2 n k)) (fun j k => x2 (ix2 j k)) (fun j => x3 (ix1 j)) n))))
          (fun n => x4 (ix2 n c)) := by
  rw [val_main_v33_apply]
  have hl : ∀ k : Fin 16384, lidx_main_v33 (ix2 i c) k = ix2 i k := fun k =>
    funext fun a => Fin.ext (by match a with | ⟨0, _⟩ => rfl | ⟨1, _⟩ => rfl)
  have hr : ∀ k : Fin 16384, ridx_main_v33 (ix2 i c) k = ix2 k c := fun k =>
    funext fun a => Fin.ext (by match a with | ⟨0, _⟩ => rfl | ⟨1, _⟩ => rfl)
  unfold Spec.echo
  refine Finset.sum_congr rfl fun k _ => ?_
  rw [hl, hr, activation]

/-- The count of class `c`: the column sum starts from the zero literal and is clamped below at the literal one. -/
theorem count_apply (x4 : Vec Ideal S16384x28 .f32) (c : Fin 28) :
    val_main_v35 (F := Ideal) x4 (ix1 c) = Spec.count (fun n => x4 (ix2 n c)) := by
  rw [val_main_v35_apply, val_main_call0_v1_apply, val_main_call0_v0_apply, val_main_cst_5_apply, val_main_v34_apply,
    val_main_cst_4_apply]
  have hk : ∀ k : Fin 16384, idx_main_v34 (ix1 c) k = ix2 k c := fun k =>
    funext fun a => Fin.ext (by match a with | ⟨0, _⟩ => rfl | ⟨1, _⟩ => rfl)
  simp only [hk, Ideal.maximumf_def, Ideal.ofBits_def, Ideal.ofBits_zero_f32, zero_add]
  rfl

/-- Entry `(i, c)` of the reference's result is the specification's: its three products are sums over the
    contracted coordinate, its row sums start from the zero literal, and `|s|^3 · sign s` is the cube. -/
theorem result_apply (x0 : Vec Ideal S8192x1024 .f32) (x1 : Vec Ideal S16384x1024 .f32) (x2 : Vec Ideal S512x1024 .f32)
    (x3 : Vec Ideal S512 .f32) (x4 : Vec Ideal S16384x28 .f32) (i : Fin 8192) (c : Fin 28) :
    val_main_v39 (F := Ideal) x0 x1 x2 x3 x4 (ix2 i c)
      = Spec.result (fun r k => x0 (ix2 r k)) (fun n k => x1 (ix2 n k)) (fun j k => x2 (ix2 j k))
          (fun j => x3 (ix1 j)) (fun n c => x4 (ix2 n c)) i c := by
  rw [val_main_v39_apply, val_main_call1_v4_apply, val_main_call1_v3_apply, val_main_cst_7_apply,
    val_main_call1_v2_apply, val_main_call1_v1_apply, val_main_call1_v0_apply, val_main_cst_6_apply,
    val_main_v38_apply, val_main_v37_apply, val_main_v36_apply, echo_apply]
  have hc : idx_main_v36 (idx_main_v37 (ix2 i c)) = ix1 c :=
    funext fun a => Fin.ext (by match a with | ⟨0, _⟩ => rfl)
  rw [hc, count_apply]
  simp only [Ideal.minimumf_def, Ideal.maximumf_def, Ideal.hostDivf_def, Ideal.ofBits_def, Ideal.ofBits_zero_f32]
  rfl

end Cert.ReferenceIdeal.RefValue

end
-- ==== Proof.lean ====
/-
  The kernel and its jnp reference compute one function over the extended reals.

  Both project each feature row, `p = x · gwᵀ + gb`, divide it by its Euclidean norm clamped below at a shared
  literal, take the inner products `s(i, n)` of query rows with example rows, raise them to the odd power three,
  weight them by the class matrix and sum over the examples, divide by the class counts clamped below at one,
  and clip to `[0, 1]` (Proof/Spec.lean states this function, `Cert.Spec.result`, on plain coordinates).
  They differ in three ways, none of which survives at the ideal values:
    * the kernel splits `x` and `gwᵀ` into a high half and a low half `v - high(v)`; a change of float format is
      the identity there, so the low halves are `v - v`, zero for the finite inputs the precondition admits, and
      the two correction products vanish (Proof/Region0.lean, Proof/Region1.lean, Proof/KHostA.lean,
      Proof/Finite.lean);
    * the kernel cubes by `s · s · s` where the reference writes `|s|^3 · sign s`: equal at every extended real
      (`Spec.abs_pow_three_mul_sign`; Proof/RefValue.lean);
    * the kernel adds the 16384 examples up in 16 runs of 1024 from zero, in an output block carried across the
      inner grid axis, on a class matrix padded to 128 columns of which the first 28 are returned: a regrouped sum
      (`Spec.sum_runs`; Proof/Region2.lean, Proof/KHostB.lean).
  Proof/KValue.lean joins the kernel's pieces; the frames of the two kernel programs are the generated ones, the
  reference's frame is its generated run, and the kernel's run with its result named is Proof/KRun.lean.
-/
import proofs.«413376_j10969346474460_3_alg».proof.Defs
import proofs.«413376_j10969346474460_3_alg».proof.Proof.Gen.Kernel
import proofs.«413376_j10969346474460_3_alg».proof.Proof.Gen.Kernel.Skeleton
import proofs.«413376_j10969346474460_3_alg».proof.Proof.Gen.Kernel.Launch
import proofs.«413376_j10969346474460_3_alg».proof.Proof.Gen.Kernel.Points
import proofs.«413376_j10969346474460_3_alg».proof.Proof.Gen.Kernel.Frame
import proofs.«413376_j10969346474460_3_alg».proof.Proof.Gen.KernelIdeal
import proofs.«413376_j10969346474460_3_alg».proof.Proof.Gen.KernelIdeal.Skeleton
import proofs.«413376_j10969346474460_3_alg».proof.Proof.Gen.KernelIdeal.Launch
import proofs.«413376_j10969346474460_3_alg».proof.Proof.Gen.KernelIdeal.Points
import proofs.«413376_j10969346474460_3_alg».proof.Proof.Gen.KernelIdeal.Frame
import proofs.«413376_j10969346474460_3_alg».proof.Proof.Gen.ReferenceIdeal
import proofs.«413376_j10969346474460_3_alg».proof.Proof.Gen.ReferenceIdeal.Run
import proofs.«413376_j10969346474460_3_alg».proof.Proof.Gen.ReferenceIdeal.Read
import proofs.«413376_j10969346474460_3_alg».proof.Proof.Gen.Pre_finite_inputs
import proofs.«413376_j10969346474460_3_alg».proof.Proof.Spec
import proofs.«413376_j10969346474460_3_alg».proof.Proof.Finite
import proofs.«413376_j10969346474460_3_alg».proof.Proof.KRun
import proofs.«413376_j10969346474460_3_alg».proof.Proof.KValue
import proofs.«413376_j10969346474460_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The result both programs end with, on every device: the specification of the kernel's launched arguments. -/
def spec (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v15) :=
  fun y : Cert.KernelIdeal.S8192x28.Idx =>
    Cert.Spec.result (fun r k => Cert.KernelIdeal.HostV.arg0 m c (ix2 r k)) (fun n k => Cert.KernelIdeal.HostV.arg1 m c (ix2 n k))
      (fun j k => Cert.KernelIdeal.HostV.arg2 m c (ix2 j k)) (fun j => Cert.KernelIdeal.HostV.arg3 m c (ix1 j))
      (fun n l => Cert.KernelIdeal.HostV.arg4 m c (ix2 n l)) (y 0) (y 1)

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, ?_, ?_⟩
  · -- the reference's frame: its run, the result dropped
    exact fun m ρ _ => (θ_run Cert.ReferenceIdeal.defs _ _).mono (fun _ h c => (h c).2)
      (Cert.ReferenceIdeal.Value.run (F := Ideal) m ρ)
  · -- the ideal pass's two rewrites, one in each projection kernel: widening what was narrowed is the identity
    exact ⟨IdealRules.truncf_extf.statement _ _ _, IdealRules.truncf_extf.statement _ _ _⟩
  · intro m ρ m' ρ' hpre hagree
    refine ⟨spec m, ?_, ?_⟩
    · -- the kernel: its run with the result named, the result read entry by entry
      refine (θ_run Cert.KernelIdeal.defs _ _).mono (fun r h c => ⟨(h c).1.trans ?_, (h c).2⟩)
        (Cert.KernelIdeal.Gen.run_named (F := Ideal) m ρ)
      obtain ⟨h0, h1, h2⟩ := Cert.Finite.real_of_pre _ _ _ _ _ (hpre c)
      funext y
      obtain ⟨i, l, rfl⟩ : ∃ (i : Fin 8192) (l : Fin 28), y = ix2 i l := ⟨y 0, y 1, eq_ix2 y⟩
      exact Cert.KernelIdeal.KValue.result_apply m ρ c h0 h1 h2 i l
    · -- the reference: its generated run, its last stage read entry by entry, at arguments that agree
      refine (θ_run Cert.ReferenceIdeal.defs _ _).mono (fun r h c => ⟨(h c).1.trans ?_, (h c).2⟩)
        (Cert.ReferenceIdeal.Value.run (F := Ideal) m' ρ')
      rw [Cert.ReferenceIdeal.Read.val_main_v39_eq, (hagree c).1, (hagree c).2.1, (hagree c).2.2.1, (hagree c).2.2.2.1,
        (hagree c).2.2.2.2]
      funext y
      obtain ⟨i, l, rfl⟩ : ∃ (i : Fin 8192) (l : Fin 28), y = ix2 i l := ⟨y 0, y 1, eq_ix2 y⟩
      exact Cert.ReferenceIdeal.RefValue.result_apply _ _ _ _ _ i l⟩

end Cert.Proof

end
